-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S128x64 : Shape := ⟨2, ![128, 64]⟩
abbrev S128 : Shape := ⟨1, ![128]⟩
abbrev S40x128 : Shape := ⟨2, ![40, 128]⟩
abbrev S40 : Shape := ⟨1, ![40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40x128 .f32) (main_arg6 : FVec F S40 .f32) (main_arg7 : FVec F S40x128 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S40x128 .f32 := Host.absf main_arg5
  let main_cst_6 : FVec F S_ .f32 := constant S_ .f32 0x7F800000#32
  let main_v20 : FVec F S40x128 .f32 := broadcastInDim S40x128 ![] bcast_S_S40x128 main_cst_6
  let main_v21 : IVec S40x128 1 := cmpf .olt main_v19 main_v20
  let main_c_7 : IVec S_ 1 := constantI S_ 1 1#1
  let main_v22 : IVec S_ 1 := (fun x v => Host.reduce IntOp.andi x v reducesTo_S40x128_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_v29 : FVec F S40x128 .f32 := Host.absf main_arg7
  let main_cst_10 : FVec F S_ .f32 := constant S_ .f32 0x7F800000#32
  let main_v30 : FVec F S40x128 .f32 := broadcastInDim S40x128 ![] bcast_S_S40x128 main_cst_10
  let main_v31 : IVec S40x128 1 := cmpf .olt main_v29 main_v30
  let main_c_11 : IVec S_ 1 := constantI S_ 1 1#1
  let main_v32 : IVec S_ 1 := (fun x v => Host.reduce IntOp.andi x v reducesTo_S40x128_S_d0_1 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S128x64 .f32) (main_arg3 : FVec F S128 .f32) (main_arg4 : FVec F S128x64 .f32) (main_arg5 : FVec F S40x128 .f32) (main_arg6 : FVec F S40 .f32) (main_arg7 : FVec F S40x128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S128x64 : Shape := ⟨2, ![128, 64]⟩
abbrev S128 : Shape := ⟨1, ![128]⟩
abbrev S40x128 : Shape := ⟨2, ![40, 128]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S64x128 : Shape := ⟨2, ![64, 128]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩
abbrev S1600000x128 : Shape := ⟨2, ![1600000, 128]⟩
abbrev S128x40 : Shape := ⟨2, ![128, 40]⟩
abbrev S1x40 : Shape := ⟨2, ![1, 40]⟩
abbrev S100000x40 : Shape := ⟨2, ![100000, 40]⟩
abbrev S5000x40 : Shape := ⟨2, ![5000, 40]⟩
abbrev S5000 : Shape := ⟨1, ![5000]⟩
abbrev S5000x1 : Shape := ⟨2, ![5000, 1]⟩

abbrev nBuf : Space → Nat
  | .hbm => 70
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S128x64, .f32⟩
  | .hbm, ⟨3, _⟩ => ⟨S128, .f32⟩
  | .hbm, ⟨4, _⟩ => ⟨S128x64, .f32⟩
  | .hbm, ⟨5, _⟩ => ⟨S40x128, .f32⟩
  | .hbm, ⟨6, _⟩ => ⟨S40, .f32⟩
  | .hbm, ⟨7, _⟩ => ⟨S40x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S64x128, .f32⟩
  | .hbm, ⟨38, _⟩ => ⟨S64x128, .f32⟩
  | .hbm, ⟨39, _⟩ => ⟨S1x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S_, .f32⟩
  | .hbm, ⟨55, _⟩ => ⟨S1600000, .f32⟩
  | .hbm, ⟨56, _⟩ => ⟨S_, .f32⟩
  | .hbm, ⟨57, _⟩ => ⟨S100000, .f32⟩
  | .hbm, ⟨58, _⟩ => ⟨S1600000x1, .i32⟩
  | .hbm, ⟨59, _⟩ => ⟨S100000, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000x1, .f32⟩
  | .hbm, ⟨64, _⟩ => ⟨S100000x128, .f32⟩
  | .hbm, ⟨65, _⟩ => ⟨S100000x128, .f32⟩
  | .hbm, ⟨66, _⟩ => ⟨S128x40, .f32⟩
  | .hbm, ⟨67, _⟩ => ⟨S128x40, .f32⟩
  | .hbm, ⟨68, _⟩ => ⟨S1x40, .f32⟩
  | .hbm, ⟨69, _⟩ => ⟨S100000x40, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S1x128, .f32⟩
  | .local _ .vmem, ⟨6, _⟩ => ⟨S64x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x40, .f32⟩
  | .local _ .vmem, ⟨14, _⟩ => ⟨S1x40, .f32⟩
  | .local _ .vmem, ⟨15, _⟩ => ⟨S128x40, .f32⟩
  | .local _ .vmem, ⟨16, _⟩ => ⟨S5000x40, .f32⟩
  | .local _ .vmem, ⟨17, _⟩ => ⟨S5000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S128x64_S64x128_1_0 : S128x64.Transposes [1, 0] S64x128
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S40x128_S128x40_1_0 : S40x128.Transposes [1, 0] S128x40
  shapeCasts_S40_S1x40 : S40.ShapeCasts S1x40
  shapeCasts_S5000x128_S5000x128 : S5000x128.ShapeCasts S5000x128
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S5000x64_S64x128_S5000x128_1_0_0_1_n_n_wf : DotDims.WF S5000x64 S64x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x40.size a ≤ S128x40.size a
  hwx1_2 : ∀ i : grid1.Coords, EltTy.bits .f32 = 32 ∨ (Rect.block (s := S128x40) S128x40.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x40.size a ≤ S1x40.size a
  hwx1_3 : ∀ i : grid1.Coords, EltTy.bits .f32 = 32 ∨ (Rect.block (s := S1x40) S1x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x40.size a ≤ S128x40.size a
  hwx1_4 : ∀ i : grid1.Coords, EltTy.bits .f32 = 32 ∨ (Rect.block (s := S128x40) S128x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x40.size a ≤ S100000x40.size a
  hwx1_5 : ∀ i : grid1.Coords, EltTy.bits .f32 = 32 ∨ (Rect.block (s := S100000x40) S5000x40.size (cc1_transform_5 i) (hinb1_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_v22) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S128x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S128x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S5000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S128x64 : Shape := ⟨2, ![128, 64]⟩
abbrev S128 : Shape := ⟨1, ![128]⟩
abbrev S40x128 : Shape := ⟨2, ![40, 128]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S64x128 : Shape := ⟨2, ![64, 128]⟩
abbrev S100000x128 : Shape := ⟨2, ![100000, 128]⟩
abbrev S1x128 : Shape := ⟨2, ![1, 128]⟩
abbrev S1600000x128 : Shape := ⟨2, ![1600000, 128]⟩
abbrev S128x40 : Shape := ⟨2, ![128, 40]⟩
abbrev S100000x40 : Shape := ⟨2, ![100000, 40]⟩
abbrev S1x40 : Shape := ⟨2, ![1, 40]⟩

abbrev nBuf : Space → Nat
  | .hbm => 96
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S128x64, .f32⟩
  | .hbm, ⟨3, _⟩ => ⟨S128, .f32⟩
  | .hbm, ⟨4, _⟩ => ⟨S128x64, .f32⟩
  | .hbm, ⟨5, _⟩ => ⟨S40x128, .f32⟩
  | .hbm, ⟨6, _⟩ => ⟨S40, .f32⟩
  | .hbm, ⟨7, _⟩ => ⟨S40x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S64x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S64x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x40, .f32⟩
  | .hbm, ⟨74, _⟩ => ⟨S100000x40, .f32⟩
  | .hbm, ⟨75, _⟩ => ⟨S1x40, .f32⟩
  | .hbm, ⟨76, _⟩ => ⟨S100000x40, .f32⟩
  | .hbm, ⟨77, _⟩ => ⟨S100000x40, .f32⟩
  | .hbm, ⟨78, _⟩ => ⟨S128x40, .f32⟩
  | .hbm, ⟨79, _⟩ => ⟨S100000x40, .f32⟩
  | .hbm, ⟨80, _⟩ => ⟨S100000x40, .f32⟩
  | .hbm, ⟨81, _⟩ => ⟨S_, .f32⟩
  | .hbm, ⟨82, _⟩ => ⟨S100000, .f32⟩
  | .hbm, ⟨83, _⟩ => ⟨S_, .f32⟩
  | .hbm, ⟨84, _⟩ => ⟨S100000, .f32⟩
  | .hbm, ⟨85, _⟩ => ⟨S100000, .f32⟩
  | .hbm, ⟨86, _⟩ => ⟨S100000x1, .f32⟩
  | .hbm, ⟨87, _⟩ => ⟨S100000x40, .f32⟩
  | .hbm, ⟨88, _⟩ => ⟨S100000x40, .f32⟩
  | .hbm, ⟨89, _⟩ => ⟨S100000x40, .f32⟩
  | .hbm, ⟨90, _⟩ => ⟨S_, .f32⟩
  | .hbm, ⟨91, _⟩ => ⟨S100000, .f32⟩
  | .hbm, ⟨92, _⟩ => ⟨S100000x1, .f32⟩
  | .hbm, ⟨93, _⟩ => ⟨S100000x1, .f32⟩
  | .hbm, ⟨94, _⟩ => ⟨S100000x40, .f32⟩
  | .hbm, ⟨95, _⟩ => ⟨S100000x40, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_call1_cst : Ref sig .tc := ⟨.hbm, 81, rfl⟩
abbrev main_call1_v0 : Ref sig .tc := ⟨.hbm, 82, rfl⟩
abbrev main_call1_cst_0 : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_v6 : Ref sig .tc := ⟨.hbm, 89, rfl⟩
abbrev main_call1_cst_1 : Ref sig .tc := ⟨.hbm, 90, rfl⟩
abbrev main_call1_v7 : Ref sig .tc := ⟨.hbm, 91, rfl⟩
abbrev main_call1_v8 : Ref sig .tc := ⟨.hbm, 92, rfl⟩
abbrev main_call1_v9 : Ref sig .tc := ⟨.hbm, 93, rfl⟩
abbrev main_call1_v10 : Ref sig .tc := ⟨.hbm, 94, rfl⟩
abbrev main_v59 : Ref sig .tc := ⟨.hbm, 95, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S128x64_S64x128_1_0 : S128x64.Transposes [1, 0] S64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S40x128_S128x40_1_0 : S40x128.Transposes [1, 0] S128x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000x1_S100000x40_0_1 : S100000x1.BroadcastsInDim S100000x40 (![0, 1] : Fin 2 → Fin S100000x40.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x40_S100000x40_1_0_0_1_n_n_wf : DotDims.WF S100000x128 S128x40 S100000x40 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.SegMean.lean ====
/-
  The neighbourhood mean of a SAGE layer, as one function of the node features and the edge list.

  Both programs compute it on the host with the same chain of operations: take row 0 of the edge list as sources and
  row 1 as destinations; a negative source index counts from the end (`wrapIdx`); gather the sources' feature rows; add
  each gathered row into its destination's row of a zero matrix (the accumulating scatter); count the edges into each
  destination the same way from ones, clamp the count below at one (`counts`); divide row by row. Nothing here opens the
  gather or the scatter: the certificate only needs that both programs apply THIS function to equal node features.
  `agg1` is the chain at 64 features (the first layer's input), `agg2` at 128 (the second layer's).
-/
import proofs.«133821_j20117626814731_1_alg».proof.Proof.Gen.KernelIdeal

noncomputable section

namespace Cert.Sage.Agg

open Cert.KernelIdeal Cert.KernelIdeal.Gen Idealize.ShloMosaic

variable {F : FTy → Type} [FloatOps F]

/-- Row 0 of the edge list, as a vector: the source node of every edge. -/
def srcOf (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- Row 1 of the edge list, as a vector: the destination node of every edge. -/
def dstOf (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- A negative index counts from the end: `s < 0 ? s + 100000 : s`. -/
def wrapIdx (s : (⟨S1600000, .i32⟩ : BufTy).Contents (Elt F)) : (⟨S1600000, .i32⟩ : BufTy).Contents (Elt F) :=
  select (cmpi .slt s (broadcastInDim S1600000 ![] bcast_S_S1600000 (constantI S_ 32 0#32)))
    (addi s (broadcastInDim S1600000 ![] bcast_S_S1600000 (constantI S_ 32 100000#32))) s

/-- The number of edges into each node, clamped below at one. -/
def counts (d : (⟨S1600000, .i32⟩ : BufTy).Contents (Elt F)) : (⟨S100000, .f32⟩ : BufTy).Contents (Elt F) :=
  maximumf
    (Host.scatterAdd scatter_S100000_S1600000x1_S1600000_n_0_0_1
      (broadcastInDim S100000 ![] bcast_S_S100000 (constant (F := F) S_ .f32 0x00000000#32))
      (broadcastInDim S1600000x1 ![0] bcast_S1600000_S1600000x1_0 d)
      (broadcastInDim S1600000 ![] bcast_S_S1600000 (constant (F := F) S_ .f32 0x3F800000#32)))
    (broadcastInDim S100000 ![] bcast_S_S100000 (constant (F := F) S_ .f32 0x3F800000#32))

/-- The mean over incoming edges of the sources' rows of `x` (64 features). -/
def agg1 (x : (⟨S100000x64, .f32⟩ : BufTy).Contents (Elt F)) (s d : (⟨S1600000, .i32⟩ : BufTy).Contents (Elt F)) :
    (⟨S100000x64, .f32⟩ : BufTy).Contents (Elt F) :=
  Host.divf
    (Host.scatterAdd scatter_S100000x64_S1600000x1_S1600000x64_1_0_0_1
      (broadcastInDim S100000x64 ![] bcast_S_S100000x64 (constant (F := F) S_ .f32 0x00000000#32))
      (broadcastInDim S1600000x1 ![0] bcast_S1600000_S1600000x1_0 d)
      (Host.gather gather_S100000x64_S1600000x1_S1600000x64_1_0_n_n_0_1_164 x
        (broadcastInDim S1600000x1 ![0] bcast_S1600000_S1600000x1_0 (wrapIdx (F := F) s))))
    (broadcastInDim S100000x64 ![0, 1] bcast_S100000x1_S100000x64_0_1
      (broadcastInDim S100000x1 ![0] bcast_S100000_S100000x1_0 (counts (F := F) d)))

/-- The mean over incoming edges of the sources' rows of `h` (128 features). -/
def agg2 (h : (⟨S100000x128, .f32⟩ : BufTy).Contents (Elt F)) (s d : (⟨S1600000, .i32⟩ : BufTy).Contents (Elt F)) :
    (⟨S100000x128, .f32⟩ : BufTy).Contents (Elt F) :=
  Host.divf
    (Host.scatterAdd scatter_S100000x128_S1600000x1_S1600000x128_1_0_0_1
      (broadcastInDim S100000x128 ![] bcast_S_S100000x128 (constant (F := F) S_ .f32 0x00000000#32))
      (broadcastInDim S1600000x1 ![0] bcast_S1600000_S1600000x1_0 d)
      (Host.gather gather_S100000x128_S1600000x1_S1600000x128_1_0_n_n_0_1_1128 h
        (broadcastInDim S1600000x1 ![0] bcast_S1600000_S1600000x1_0 (wrapIdx (F := F) s))))
    (broadcastInDim S100000x128 ![0, 1] bcast_S100000x1_S100000x128_0_1
      (broadcastInDim S100000x1 ![0] bcast_S100000_S100000x1_0 (counts (F := F) d)))

end Cert.Sage.Agg

end
-- ==== Proof.RowSpec.lean ====
/-
  One node's row through a SAGE dense layer, as plain functions on the extended reals.

  For a node with aggregated neighbour features `a` and own features `r` (both of length `K`), one output channel's
  two weight columns `wl`, `wr` and its bias `b`, the layer's pre-activation at that channel is
      lin a r wl wr b = (∑ₖ a k · wl k + ∑ₖ r k · wr k) + b.
  The first layer clamps it at zero from below (`dense1`); the second layer takes the log-softmax of the node's row of
  pre-activations (`dense2`): with `m` the row's maximum and `z j = y j - m`, the result is `z j - log (∑ⱼ exp (z j))`.
  Both are stated for a matrix of any number `R` of nodes: row `r` of the result depends on row `r` of the two feature
  matrices only, which is why the rows may be cut into blocks and each block computed by itself.

  The other grouping of the three summands, `(∑ₖ a k · wl k + b) + ∑ₖ r k · wr k`, is the same extended real
  (`lin_eq_regrouped`): addition of extended reals is commutative and associative, infinities included, so no
  finiteness is needed anywhere.
-/
import Idealize.ShloMosaic.PureOps.Ideal
import Idealize.ShloMosaic.Lib.ValueIdx

noncomputable section

open scoped BigOperators

namespace Cert.Sage

open Idealize.ShloMosaic Idealize.ShloMosaic.ValueIdx

variable {R K N : ℕ}

/-- The pre-activation of one node at one channel: neighbours' part plus own part, plus the bias. -/
def lin (a r wl wr : Fin K → EReal) (b : EReal) : EReal :=
  (∑ k : Fin K, a k * wl k + ∑ k : Fin K, r k * wr k) + b

/-- Grouped the other way — neighbours' part plus bias first, own part last — it is the same extended real. -/
theorem lin_eq_regrouped (a r wl wr : Fin K → EReal) (b : EReal) :
    (∑ k : Fin K, a k * wl k + b) + ∑ k : Fin K, r k * wr k = lin a r wl wr b :=
  add_right_comm _ _ _

/-- The zero both programs spell as the f32 literal of all-zero bits. -/
abbrev zeroLit : EReal := Ideal.ofBits .f32 0x00000000#32
/-- The minus infinity both programs spell as the f32 literal `0xFF800000`. -/
abbrev negInfLit : EReal := Ideal.ofBits .f32 0xFF800000#32

/-- Row `r` of a matrix. -/
abbrev row {C : ℕ} (A : (⟨2, ![R, C]⟩ : Shape).Idx → EReal) (r : Fin R) : Fin C → EReal := fun k => A (ix2 r k)
/-- Column `j` of a matrix. -/
abbrev col {C : ℕ} (W : (⟨2, ![R, C]⟩ : Shape).Idx → EReal) (j : Fin C) : Fin R → EReal := fun k => W (ix2 k j)

/-- A matrix from its entries by row and column. -/
abbrev arr2 (f : Fin R → Fin N → EReal) : (⟨2, ![R, N]⟩ : Shape).Idx → EReal := fun i => f (i 0) (i 1)

/-- The pre-activations of node `r`, all channels. -/
def pre (A X : (⟨2, ![R, K]⟩ : Shape).Idx → EReal) (WL WR : (⟨2, ![K, N]⟩ : Shape).Idx → EReal) (bias : Fin N → EReal)
    (r : Fin R) (j : Fin N) : EReal :=
  lin (row A r) (row X r) (col WL j) (col WR j) (bias j)

/-- The first layer: the pre-activation clamped below at zero. -/
def dense1 (A X : (⟨2, ![R, K]⟩ : Shape).Idx → EReal) (WL WR : (⟨2, ![K, N]⟩ : Shape).Idx → EReal) (bias : Fin N → EReal)
    (r : Fin R) (j : Fin N) : EReal :=
  max (pre A X WL WR bias r j) zeroLit

/-- The maximum of a row, folded from `bot`. -/
def rowMax (bot : EReal) (y : Fin N → EReal) : EReal := (Finset.univ : Finset (Fin N)).fold max bot y

/-- Folding from `bot` never goes below `bot`, so one more `max` with `bot` changes nothing. -/
theorem max_bot_rowMax (bot : EReal) (y : Fin N → EReal) : max bot (rowMax bot y) = rowMax bot y :=
  max_eq_right (Finset.le_fold_max bot |>.mpr (Or.inl le_rfl))

/-- The log-softmax of a row `y` at channel `j`: shift by the row's maximum, subtract the log of the sum of exponentials. -/
def logSoftmaxRow (bot : EReal) (y : Fin N → EReal) (j : Fin N) : EReal :=
  (y j - rowMax bot y) - Ideal.log (∑ j' : Fin N, Ideal.exp (y j' - rowMax bot y))

/-- The second layer: the log-softmax of node `r`'s row of pre-activations. -/
def dense2 (A X : (⟨2, ![R, K]⟩ : Shape).Idx → EReal) (WL WR : (⟨2, ![K, N]⟩ : Shape).Idx → EReal) (bias : Fin N → EReal)
    (r : Fin R) (j : Fin N) : EReal :=
  logSoftmaxRow negInfLit (pre A X WL WR bias r) j

end Cert.Sage

end
-- ==== Proof.LibRowOps.lean ====
/-
  Row-wise operations read at an index, at the ideal instance, for a matrix of any number of rows: a reduction along
  the columns (a sum, a maximum) read at a row is the sum, or the fold of `max`, over that row's entries; a vector of
  row values made a column and that column broadcast along the rows read at (row, column) are the row's value; and a
  matrix product into a zero accumulator read at (row, column) is the sum over the contracted axis of the row's entries
  against the column's. None of them depends on the other rows, which is why a kernel may cut the rows into blocks.
-/
import Idealize.ShloMosaic.PureOps.Ideal.Laws
import Idealize.ShloMosaic.Lib.ValueLayout

noncomputable section

open scoped BigOperators

namespace Cert.RowOps

open Idealize.ShloMosaic Idealize.ShloMosaic.ValueIdx

variable {R N K : ℕ} {φ φ₁ φ₂ : FTy} {α : Type}

/-- Over row `r` of an `R × N` matrix reduced along its columns, the source index with column `k` put back is
    `(r, k)`. -/
theorem lift_row (h : (⟨2, ![R, N]⟩ : Shape).Reduces [(1 : Fin 2)] ⟨1, ![R]⟩) (r : Fin R) (k : Fin N) :
    h.lift (ix1 r) k = ix2 r k := by
  funext c
  apply Fin.ext
  match c with
  | ⟨0, _⟩ => rfl
  | ⟨1, _⟩ => rfl

/-- A sum along the columns, read at row `r`: the sum of that row's entries. -/
theorem rowSum_apply (src : FVec Ideal ⟨2, ![R, N]⟩ φ) (acc : BitVec φ.bits)
    (h : (⟨2, ![R, N]⟩ : Shape).Reduces [(1 : Fin 2)] ⟨1, ![R]⟩) (hφ : FKind.Formats φ)
    (hacc : acc = FKind.add.neutral φ hφ) (r : Fin R) :
    multiReduction .add [(1 : Fin 2)] ⟨1, ![R]⟩ src acc h hφ hacc (ix1 r) = ∑ k : Fin N, src (ix2 r k) :=
  (Ideal.multiReduction_add_single src acc h hφ hacc (ix1 r)).trans
    (Finset.sum_congr rfl fun k _ => congrArg src (lift_row h r k))

/-- A maximum along the columns, read at row `r`: the fold of `max`, from the accumulator's value, over that row's
    entries. -/
theorem rowMax_apply (src : FVec Ideal ⟨2, ![R, N]⟩ φ) (acc : BitVec φ.bits)
    (h : (⟨2, ![R, N]⟩ : Shape).Reduces [(1 : Fin 2)] ⟨1, ![R]⟩) (hφ : FKind.Formats φ)
    (hacc : acc = FKind.maximumf.neutral φ hφ) (r : Fin R) :
    multiReduction .maximumf [(1 : Fin 2)] ⟨1, ![R]⟩ src acc h hφ hacc (ix1 r)
      = (Finset.univ : Finset (Fin N)).fold max (Ideal.ofBits φ acc) (fun k => src (ix2 r k)) := by
  have e : src ∘ h.lift (ix1 r) = fun k : Fin N => src (ix2 r k) := funext fun k => congrArg src (lift_row h r k)
  rw [Ideal.multiReduction_maximumf_single, e]
  rfl

/-- A vector of `R` values made an `R × 1` column reads, at `(r, u)`, the value at `r`. -/
theorem shapeCast_a_a1_apply (x : (⟨1, ![R]⟩ : Shape).Idx → α) (h : (⟨1, ![R]⟩ : Shape).ShapeCasts ⟨2, ![R, 1]⟩)
    (r : Fin R) (u : Fin 1) : shapeCast ⟨2, ![R, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `R × 1` column broadcast along `N` columns reads, at `(r, c)`, the column's entry at row `r`. -/
theorem broadcastTo_a1_ab_apply (v : (⟨2, ![R, 1]⟩ : Shape).Idx → α) (h : (⟨2, ![R, 1]⟩ : Shape).Broadcasts ⟨2, ![R, N]⟩)
    (r : Fin R) (c : Fin N) : broadcastTo ⟨2, ![R, N]⟩ v h (ix2 r c) = v (ix2 r (0 : Fin 1)) := by
  refine broadcastTo_apply v h (ix2 r c) (ix2 r (0 : Fin 1)) fun ax => ?_
  match ax with
  | ⟨0, _⟩ =>
    show r.val = if R = 1 then 0 else r.val
    split
    · have := r.isLt; omega
    · rfl
  | ⟨1, _⟩ =>
    show (0 : ℕ) = if (1 : ℕ) = 1 then 0 else c.val
    rw [if_pos rfl]

/-- The two together: a vector of row values, made a column and broadcast along the columns, reads the row's value. -/
theorem rowSplat_apply (x : (⟨1, ![R]⟩ : Shape).Idx → α) (hc : (⟨1, ![R]⟩ : Shape).ShapeCasts ⟨2, ![R, 1]⟩)
    (hb : (⟨2, ![R, 1]⟩ : Shape).Broadcasts ⟨2, ![R, N]⟩) (r : Fin R) (c : Fin N) :
    broadcastTo ⟨2, ![R, N]⟩ (shapeCast ⟨2, ![R, 1]⟩ x hc) hb (ix2 r c) = x (ix1 r) := by
  rw [broadcastTo_a1_ab_apply, shapeCast_a_a1_apply]

/-- A matrix index whose two coordinates are known is `ix2` of them. -/
theorem eq_ix2_of_val {n0 n1 : ℕ} (i : (⟨2, ![n0, n1]⟩ : Shape).Idx) (a : Fin n0) (b : Fin n1)
    (h0 : (i (0 : Fin 2)).val = a.val) (h1 : (i (1 : Fin 2)).val = b.val) : i = ix2 a b := by
  funext c
  apply Fin.ext
  match c with
  | ⟨0, _⟩ => exact h0
  | ⟨1, _⟩ => exact h1

/-- With no batch axes and the rows the left operand's one free axis, the left index's row is the result index's row,
    whatever the contraction position. -/
theorem lhsIdx_row (d : DotDims ⟨2, ![R, K]⟩ ⟨2, ![K, N]⟩ ⟨2, ![R, N]⟩)
    (hln : d.lhsNonContracting = [(0 : Fin 2)]) (hlb : d.lhsBatch = [])
    (j : (⟨2, ![R, N]⟩ : Shape).Idx) (q : d.contr.Idx) : (d.lhsIdx j q (0 : Fin 2)).val = (j (0 : Fin 2)).val := by
  have hnb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hnb, dif_pos hn]
  simp only [Fin.val_cast]
  have key : ∀ (p p' : ℕ) (hp : p < 2) (hp' : p' < 2), p = p' → (j ⟨p, hp⟩).val = (j ⟨p', hp'⟩).val :=
    fun p p' hp hp' e => by subst e; rfl
  exact key _ _ _ _ (by simp [hlb, hln])

/-- With no batch axes, the rows the left operand's one free axis and the columns the right operand's, the right index's
    column is the result index's column, whatever the contraction position. -/
theorem rhsIdx_col (d : DotDims ⟨2, ![R, K]⟩ ⟨2, ![K, N]⟩ ⟨2, ![R, N]⟩)
    (hln : d.lhsNonContracting = [(0 : Fin 2)]) (hrn : d.rhsNonContracting = [(1 : Fin 2)])
    (hlb : d.lhsBatch = []) (hrb : d.rhsBatch = [])
    (j : (⟨2, ![R, N]⟩ : Shape).Idx) (q : d.contr.Idx) : (d.rhsIdx j q (1 : Fin 2)).val = (j (1 : Fin 2)).val := by
  have hnb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hnb, dif_pos hn]
  simp only [Fin.val_cast]
  have key : ∀ (p p' : ℕ) (hp : p < 2) (hp' : p' < 2), p = p' → (j ⟨p, hp⟩).val = (j ⟨p', hp'⟩).val :=
    fun p p' hp hp' e => by subst e; rfl
  exact key _ _ _ _ (by simp [hlb, hln, hrn])

/-- A plain matrix product (`R × K` by `K × N`, the left operand's columns contracted against the right operand's rows,
    no batch axes) into the zero accumulator, read at `(r, j)`: the sum over `k` of row `r` of the left operand against
    column `j` of the right. -/
theorem matmul_row_apply (d : DotDims ⟨2, ![R, K]⟩ ⟨2, ![K, N]⟩ ⟨2, ![R, N]⟩)
    (hlc : d.lhsContracting = [(1 : Fin 2)]) (hrc : d.rhsContracting = [(0 : Fin 2)])
    (hln : d.lhsNonContracting = [(0 : Fin 2)]) (hrn : d.rhsNonContracting = [(1 : Fin 2)])
    (hlb : d.lhsBatch = []) (hrb : d.rhsBatch = [])
    (prec : Option ContractPrecision) (lhs : FVec Ideal ⟨2, ![R, K]⟩ φ₁) (rhs : FVec Ideal ⟨2, ![K, N]⟩ φ₂)
    (r : Fin R) (j : Fin N) :
    FloatOps.matmul d prec lhs rhs (constant ⟨2, ![R, N]⟩ .f32 0x00000000#32) (ix2 r j)
      = ∑ k : Fin K, lhs (ix2 r k) * rhs (ix2 k j) := by
  have hr : d.contr.rank = 1 := by rw [d.rank_contr, hlc]; rfl
  have hs : d.contr.size ⟨0, by omega⟩ = K := by
    have h0 : 0 < d.lhsContracting.length := by rw [hlc]; exact Nat.one_pos
    have e1 : d.lhsContracting[0] = (1 : Fin 2) := by simp [hlc]
    exact (d.size_contr 0 h0).trans (by rw [e1]; rfl)
  rw [Ideal.matmul_constant_zero_apply]
  refine ((contrEquiv1 d K hr hs).symm.sum_comp _).symm.trans (Finset.sum_congr rfl fun k _ => ?_)
  have hL : d.lhsIdx (ix2 r j) ((contrEquiv1 d K hr hs).symm k) = ix2 r k :=
    eq_ix2_of_val _ r k (lhsIdx_row d hln hlb _ _)
      ((d.lhsIdx_val_of_single hlc _ _).trans (contrEquiv1_symm_val d K hr hs k))
  have hR : d.rhsIdx (ix2 r j) ((contrEquiv1 d K hr hs).symm k) = ix2 k j :=
    eq_ix2_of_val _ k j ((d.rhsIdx_val_of_single hrc _ _).trans (contrEquiv1_symm_val d K hr hs k))
      (rhsIdx_col d hln hrn hlb hrb _ _)
  show lhs (d.lhsIdx (ix2 r j) ((contrEquiv1 d K hr hs).symm k)) * rhs (d.rhsIdx (ix2 r j) ((contrEquiv1 d K hr hs).symm k)) = _
  rw [hL, hR]

end Cert.RowOps

end
-- ==== Proof.KernelPayload.lean ====
/-
  The two dense kernels' stored values read at one entry, at the ideal instance.

  Each kernel body computes, for a block of rows, the pre-activation matrix
      y = (agg · Wl + root · Wr) + bias
  (two matrix products into zero accumulators, added, plus the bias row repeated along the rows) and stores either
  max(y, 0) (the first layer) or, row by row, the log-softmax of y (the second layer): with m the row's maximum,
  z = y - m and s the row's sum of exp z, the stored row is z - log s.

  Over the extended reals the narrowing of the products' operands is the identity, a reshape to the same shape is the
  identity, and every operation reads at an entry (p, q) through row p of the inputs only. So the first kernel's value
  at (p, q) is `dense1` of the inputs at (p, q) and the second's is `dense2`: the row specification of the layer.
-/
import proofs.«133821_j20117626814731_1_alg».proof.Proof.Gen.KernelIdeal.Skeleton
import proofs.«133821_j20117626814731_1_alg».proof.Proof.LibRowOps
import proofs.«133821_j20117626814731_1_alg».proof.Proof.RowSpec
import Idealize.ShloMosaic.Lib.Pipeline.Value

noncomputable section

open scoped BigOperators

namespace Cert.Sage.Kernel

open Idealize.ShloMosaic Idealize.ShloMosaic.ValueIdx Cert.KernelIdeal Cert.KernelIdeal.Gen Cert.Sage

variable {R K N : ℕ}

/-! ## The pre-activation -/

/-- Two plain matrix products into zero accumulators, added, plus a third matrix, read at `(p, q)`: when the products'
    operands agree with `A`, `X` on row `p` and with `WL`, `WR` on column `q`, and the third matrix reads `bias q`
    there, it is the pre-activation of node `p` at channel `q`. -/
theorem pre_read (d : DotDims ⟨2, ![R, K]⟩ ⟨2, ![K, N]⟩ ⟨2, ![R, N]⟩)
    (hlc : d.lhsContracting = [(1 : Fin 2)]) (hrc : d.rhsContracting = [(0 : Fin 2)])
    (hln : d.lhsNonContracting = [(0 : Fin 2)]) (hrn : d.rhsNonContracting = [(1 : Fin 2)])
    (hlb : d.lhsBatch = []) (hrb : d.rhsBatch = [])
    (A X : (⟨2, ![R, K]⟩ : Shape).Idx → EReal) (WL WR : (⟨2, ![K, N]⟩ : Shape).Idx → EReal) (bias : Fin N → EReal)
    {φ₁ φ₂ : FTy} (a x : FVec Ideal ⟨2, ![R, K]⟩ φ₁) (wl wr : FVec Ideal ⟨2, ![K, N]⟩ φ₂)
    (b : FVec Ideal ⟨2, ![R, N]⟩ .f32) (p : Fin R) (q : Fin N)
    (ha : ∀ k, a (ix2 p k) = A (ix2 p k)) (hx : ∀ k, x (ix2 p k) = X (ix2 p k))
    (hwl : ∀ k, wl (ix2 k q) = WL (ix2 k q)) (hwr : ∀ k, wr (ix2 k q) = WR (ix2 k q))
    (hb : b (ix2 p q) = bias q) :
    addf (addf (FloatOps.matmul d none a wl (constant (F := Ideal) ⟨2, ![R, N]⟩ .f32 0x00000000#32))
        (FloatOps.matmul d none x wr (constant (F := Ideal) ⟨2, ![R, N]⟩ .f32 0x00000000#32))) b (ix2 p q)
      = pre A X WL WR bias p q := by
  have e1 := Cert.RowOps.matmul_row_apply d hlc hrc hln hrn hlb hrb none a wl p q
  have e2 := Cert.RowOps.matmul_row_apply d hlc hrc hln hrn hlb hrb none x wr p q
  have s1 : ∑ k : Fin K, a (ix2 p k) * wl (ix2 k q) = ∑ k : Fin K, A (ix2 p k) * WL (ix2 k q) :=
    Finset.sum_congr rfl fun k _ => by rw [ha k, hwl k]
  have s2 : ∑ k : Fin K, x (ix2 p k) * wr (ix2 k q) = ∑ k : Fin K, X (ix2 p k) * WR (ix2 k q) :=
    Finset.sum_congr rfl fun k _ => by rw [hx k, hwr k]
  show (FloatOps.matmul d none a wl (constant (F := Ideal) ⟨2, ![R, N]⟩ .f32 0x00000000#32) (ix2 p q)
      + FloatOps.matmul d none x wr (constant (F := Ideal) ⟨2, ![R, N]⟩ .f32 0x00000000#32) (ix2 p q)) + b (ix2 p q)
    = (∑ k : Fin K, A (ix2 p k) * WL (ix2 k q) + ∑ k : Fin K, X (ix2 p k) * WR (ix2 k q)) + bias q
  rw [e1, e2, s1, s2, hb]

/-! ## The row log-softmax -/

/-- The log-softmax as the kernel spells it — the row maxima from minus infinity made a column and repeated along the
    rows, subtracted; the exponentials' row sums from zero, made a column, their logarithm repeated along the rows,
    subtracted — read at `(p, q)`: the log-softmax of row `p` at channel `q`. -/
theorem logSoftmax_read (y : FVec Ideal ⟨2, ![R, N]⟩ .f32)
    (hred : (⟨2, ![R, N]⟩ : Shape).Reduces [(1 : Fin 2)] ⟨1, ![R]⟩)
    (hc : (⟨1, ![R]⟩ : Shape).ShapeCasts ⟨2, ![R, 1]⟩) (hb : (⟨2, ![R, 1]⟩ : Shape).Broadcasts ⟨2, ![R, N]⟩)
    (hφ : FKind.Formats .f32) (hmax : (0xFF800000#32 : BitVec 32) = FKind.maximumf.neutral .f32 hφ)
    (hadd : (0x00000000#32 : BitVec 32) = FKind.add.neutral .f32 hφ) (p : Fin R) (q : Fin N) :
    subf (subf y (broadcastTo ⟨2, ![R, N]⟩ (shapeCast ⟨2, ![R, 1]⟩
        (multiReduction (F := Ideal) .maximumf [(1 : Fin 2)] ⟨1, ![R]⟩ y 0xFF800000#32 hred hφ hmax) hc) hb))
      (broadcastTo ⟨2, ![R, N]⟩ (log (shapeCast ⟨2, ![R, 1]⟩
        (multiReduction (F := Ideal) .add [(1 : Fin 2)] ⟨1, ![R]⟩
          (exp (subf y (broadcastTo ⟨2, ![R, N]⟩ (shapeCast ⟨2, ![R, 1]⟩
            (multiReduction (F := Ideal) .maximumf [(1 : Fin 2)] ⟨1, ![R]⟩ y 0xFF800000#32 hred hφ hmax) hc) hb)))
          0x00000000#32 hred hφ hadd) hc)) hb) (ix2 p q)
      = logSoftmaxRow negInfLit (fun j => y (ix2 p j)) q := by
  -- the row's maximum, wherever along the row it is read
  have hm : ∀ j : Fin N, broadcastTo ⟨2, ![R, N]⟩ (shapeCast ⟨2, ![R, 1]⟩
        (multiReduction (F := Ideal) .maximumf [(1 : Fin 2)] ⟨1, ![R]⟩ y 0xFF800000#32 hred hφ hmax) hc) hb (ix2 p j)
      = rowMax negInfLit (fun j => y (ix2 p j)) := fun j =>
    (Cert.RowOps.rowSplat_apply _ hc hb p j).trans (Cert.RowOps.rowMax_apply y 0xFF800000#32 hred hφ hmax p)
  -- the shifted row
  have hz : ∀ j : Fin N, subf y (broadcastTo ⟨2, ![R, N]⟩ (shapeCast ⟨2, ![R, 1]⟩
        (multiReduction (F := Ideal) .maximumf [(1 : Fin 2)] ⟨1, ![R]⟩ y 0xFF800000#32 hred hφ hmax) hc) hb) (ix2 p j)
      = y (ix2 p j) - rowMax negInfLit (fun j => y (ix2 p j)) := fun j =>
    congrArg (fun t => y (ix2 p j) - t) (hm j)
  -- the sum of its exponentials
  have hs : multiReduction (F := Ideal) .add [(1 : Fin 2)] ⟨1, ![R]⟩
        (exp (subf y (broadcastTo ⟨2, ![R, N]⟩ (shapeCast ⟨2, ![R, 1]⟩
          (multiReduction (F := Ideal) .maximumf [(1 : Fin 2)] ⟨1, ![R]⟩ y 0xFF800000#32 hred hφ hmax) hc) hb)))
        0x00000000#32 hred hφ hadd (ix1 p)
      = ∑ j : Fin N, Ideal.exp (y (ix2 p j) - rowMax negInfLit (fun j => y (ix2 p j))) :=
    (Cert.RowOps.rowSum_apply _ 0x00000000#32 hred hφ hadd p).trans
      (Finset.sum_congr rfl fun j _ => congrArg Ideal.exp (hz j))
  -- its logarithm, wherever along the row it is read
  have hl : broadcastTo ⟨2, ![R, N]⟩ (log (shapeCast ⟨2, ![R, 1]⟩
        (multiReduction (F := Ideal) .add [(1 : Fin 2)] ⟨1, ![R]⟩
          (exp (subf y (broadcastTo ⟨2, ![R, N]⟩ (shapeCast ⟨2, ![R, 1]⟩
            (multiReduction (F := Ideal) .maximumf [(1 : Fin 2)] ⟨1, ![R]⟩ y 0xFF800000#32 hred hφ hmax) hc) hb)))
          0x00000000#32 hred hφ hadd) hc)) hb (ix2 p q)
      = Ideal.log (∑ j : Fin N, Ideal.exp (y (ix2 p j) - rowMax negInfLit (fun j => y (ix2 p j)))) :=
    (Cert.RowOps.broadcastTo_a1_ab_apply _ hb p q).trans
      ((congrArg Ideal.log (Cert.RowOps.shapeCast_a_a1_apply _ hc p (0 : Fin 1))).trans (congrArg Ideal.log hs))
  exact (congrArg₂ (fun s t : EReal => s - t) (hz q) hl)

/-! ## The first kernel: the pre-activation clamped at zero -/

/-- The first kernel's stored value at `(p, q)` is the first dense layer of the loaded blocks at `(p, q)`, the bias
    being the loaded `1 × 128` row. -/
theorem pay0_apply (v0 v3 : Vec Ideal S5000x64 .f32) (v5 v8 : Vec Ideal S64x128 .f32) (v14 : Vec Ideal S1x128 .f32)
    (p : Fin 5000) (q : Fin 128) :
    k0_pay1 (F := Ideal) v0 v3 v5 v8 v14 (ix2 p q) = dense1 v0 v3 v5 v8 (fun j => v14 (ix2 (0 : Fin 1) j)) p q := by
  have hpre := pre_read dot_S5000x64_S64x128_S5000x128_1_0_0_1_n_n rfl rfl rfl rfl rfl rfl
    v0 v3 v5 v8 (fun j => v14 (ix2 (0 : Fin 1) j))
    (truncf (F := Ideal) .bf16 (shapeCast S5000x64 v0 shapeCasts_S5000x64_S5000x64) bitsLt_bf16_f32)
    (truncf (F := Ideal) .bf16 v3 bitsLt_bf16_f32)
    (truncf (F := Ideal) .bf16 (shapeCast S64x128 v5 shapeCasts_S64x128_S64x128) bitsLt_bf16_f32)
    (truncf (F := Ideal) .bf16 (shapeCast S64x128 v8 shapeCasts_S64x128_S64x128) bitsLt_bf16_f32)
    (broadcastTo S5000x128 (shapeCast S1x128 v14 shapeCasts_S1x128_S1x128) broadcasts_S1x128_S5000x128) p q
    (fun k => congrFun (shapeCast_self v0 shapeCasts_S5000x64_S5000x64) (ix2 p k))
    (fun _ => rfl)
    (fun k => congrFun (shapeCast_self v5 shapeCasts_S64x128_S64x128) (ix2 k q))
    (fun k => congrFun (shapeCast_self v8 shapeCasts_S64x128_S64x128) (ix2 k q))
    ((broadcastTo_1b_ab_apply _ broadcasts_S1x128_S5000x128 p q).trans
      (congrFun (shapeCast_self v14 shapeCasts_S1x128_S1x128) (ix2 (0 : Fin 1) q)))
  exact congrArg (fun t : EReal => max t zeroLit) hpre

/-! ## The second kernel: the row log-softmax of the pre-activation -/

/-- The second kernel's pre-activation matrix, as the kernel spells it. -/
def preVec (v0 v3 : Vec Ideal S5000x128 .f32) (v6 v9 : Vec Ideal S128x40 .f32) (v15 : Vec Ideal S1x40 .f32) :
    FVec Ideal S5000x40 .f32 :=
  addf (addf
      (FloatOps.matmul dot_S5000x128_S128x40_S5000x40_1_0_0_1_n_n none
        (truncf (F := Ideal) .bf16 (shapeCast S5000x128 v0 shapeCasts_S5000x128_S5000x128) bitsLt_bf16_f32)
        (truncf (F := Ideal) .bf16 (shapeCast S128x40 v6 shapeCasts_S128x40_S128x40) bitsLt_bf16_f32)
        (constant (F := Ideal) S5000x40 .f32 0x00000000#32))
      (FloatOps.matmul dot_S5000x128_S128x40_S5000x40_1_0_0_1_n_n none
        (truncf (F := Ideal) .bf16 (shapeCast S5000x128 v3 shapeCasts_S5000x128_S5000x128) bitsLt_bf16_f32)
        (truncf (F := Ideal) .bf16 (shapeCast S128x40 v9 shapeCasts_S128x40_S128x40) bitsLt_bf16_f32)
        (constant (F := Ideal) S5000x40 .f32 0x00000000#32)))
    (broadcastTo S5000x40 (shapeCast S1x40 v15 shapeCasts_S1x40_S1x40) broadcasts_S1x40_S5000x40)

/-- It reads, at every `(p, j)`, the pre-activation of node `p` at channel `j`. -/
theorem preVec_apply (v0 v3 : Vec Ideal S5000x128 .f32) (v6 v9 : Vec Ideal S128x40 .f32) (v15 : Vec Ideal S1x40 .f32)
    (p : Fin 5000) (j : Fin 40) :
    preVec v0 v3 v6 v9 v15 (ix2 p j) = pre v0 v3 v6 v9 (fun j => v15 (ix2 (0 : Fin 1) j)) p j :=
  pre_read dot_S5000x128_S128x40_S5000x40_1_0_0_1_n_n rfl rfl rfl rfl rfl rfl
    v0 v3 v6 v9 (fun j => v15 (ix2 (0 : Fin 1) j))
    (truncf (F := Ideal) .bf16 (shapeCast S5000x128 v0 shapeCasts_S5000x128_S5000x128) bitsLt_bf16_f32)
    (truncf (F := Ideal) .bf16 (shapeCast S5000x128 v3 shapeCasts_S5000x128_S5000x128) bitsLt_bf16_f32)
    (truncf (F := Ideal) .bf16 (shapeCast S128x40 v6 shapeCasts_S128x40_S128x40) bitsLt_bf16_f32)
    (truncf (F := Ideal) .bf16 (shapeCast S128x40 v9 shapeCasts_S128x40_S128x40) bitsLt_bf16_f32)
    (broadcastTo S5000x40 (shapeCast S1x40 v15 shapeCasts_S1x40_S1x40) broadcasts_S1x40_S5000x40) p j
    (fun k => congrFun (shapeCast_self v0 shapeCasts_S5000x128_S5000x128) (ix2 p k))
    (fun k => congrFun (shapeCast_self v3 shapeCasts_S5000x128_S5000x128) (ix2 p k))
    (fun k => congrFun (shapeCast_self v6 shapeCasts_S128x40_S128x40) (ix2 k j))
    (fun k => congrFun (shapeCast_self v9 shapeCasts_S128x40_S128x40) (ix2 k j))
    ((broadcastTo_1b_ab_apply _ broadcasts_S1x40_S5000x40 p j).trans
      (congrFun (shapeCast_self v15 shapeCasts_S1x40_S1x40) (ix2 (0 : Fin 1) j)))

/-- The second kernel's stored value at `(p, q)` is the second dense layer of the loaded blocks at `(p, q)`, the bias
    being the loaded `1 × 40` row. -/
theorem pay1_apply (v0 v3 : Vec Ideal S5000x128 .f32) (v6 v9 : Vec Ideal S128x40 .f32) (v15 : Vec Ideal S1x40 .f32)
    (p : Fin 5000) (q : Fin 40) :
    k1_pay1 (F := Ideal) v0 v3 v6 v9 v15 (ix2 p q) = dense2 v0 v3 v6 v9 (fun j => v15 (ix2 (0 : Fin 1) j)) p q := by
  have hrow : (fun j : Fin 40 => preVec v0 v3 v6 v9 v15 (ix2 p j))
      = pre v0 v3 v6 v9 (fun j => v15 (ix2 (0 : Fin 1) j)) p := funext fun j => preVec_apply v0 v3 v6 v9 v15 p j
  refine (logSoftmax_read (preVec v0 v3 v6 v9 v15) reduces_S5000x40_S5000 shapeCasts_S5000_S5000x1
    broadcasts_S5000x1_S5000x40 (.inl rfl) rfl rfl p q).trans ?_
  exact congrArg (fun f : Fin 40 → EReal => logSoftmaxRow negInfLit f q) hrow

end Cert.Sage.Kernel

end
-- ==== Proof.Region0.lean ====
/-
  The first layer's pallas_call, read as one whole-array function.

  The call cuts the 100000 nodes into 20 blocks of 5000 rows; at block `t` the body sees rows 5000·t … 5000·t + 4999 of
  the aggregated features and of the nodes' own features, and the whole of both weight matrices and of the bias row, and
  writes the same rows of the output. Row `r` of a dense layer depends on row `r` of the two feature matrices only
  (`dense1_local`), so what block `t` writes back is block `t` of ONE function of the arrays the call finds
  (`flushed0_eq`): `G0`, whose entry at (r, j) is `dense1` of those arrays at (r, j). The blocks cover every row
  (row `r` lies in block `r / 5000`: `cover0`), so after all write-backs the output array is `G0` (`final0`).
  Stated for any contents `V` of the buffers at the call's entry.
-/
import proofs.«133821_j20117626814731_1_alg».proof.Proof.Gen.KernelIdeal.Frame
import proofs.«133821_j20117626814731_1_alg».proof.Proof.RowSpec
import proofs.«133821_j20117626814731_1_alg».proof.Proof.KernelPayload
import Idealize.ShloMosaic.Lib.Pipeline.Value

set_option maxRecDepth 16384

noncomputable section

open scoped BigOperators

namespace Cert.Sage.Kernel

open Cert.KernelIdeal Cert.KernelIdeal.Gen Idealize.ShloMosaic Idealize.ShloMosaic.TcCoe Idealize.SL.Sem Idealize.ShloMosaic.ValueIdx Cert.Sage
open Idealize.ShloMosaic.Pipeline (Dat)

variable (V : (c : Dev nD) → (b : Ref sig .tc) → Buf (Elt Ideal) ((c : Thread nD τ).loc b))

/-- The offset of a load or store of a whole buffer is zero on both axes. -/
theorem hz0 : (![0, 0] : Fin 2 → Nat) = fun _ => 0 := funext fun a => by fin_cases a <;> rfl

/-- Row `r` of the first layer's result depends on row `r` of the two feature matrices only, and channel `j` on the
    two weight columns and the bias entry of that channel only. -/
theorem dense1_local {R R' K N : ℕ} (A X : (⟨2, ![R, K]⟩ : Shape).Idx → EReal) (A' X' : (⟨2, ![R', K]⟩ : Shape).Idx → EReal)
    (WL WR WL' WR' : (⟨2, ![K, N]⟩ : Shape).Idx → EReal) (bias bias' : Fin N → EReal) (r : Fin R) (r' : Fin R') (j j' : Fin N)
    (hj : j' = j)
    (hA : ∀ k, A' (ix2 r' k) = A (ix2 r k)) (hX : ∀ k, X' (ix2 r' k) = X (ix2 r k))
    (hL : ∀ k, WL' (ix2 k j) = WL (ix2 k j)) (hR : ∀ k, WR' (ix2 k j) = WR (ix2 k j)) (hb : bias' j = bias j) :
    dense1 A' X' WL' WR' bias' r' j' = dense1 A X WL WR bias r j := by
  subst hj
  unfold dense1 pre lin
  simp only [hA, hX, hL, hR, hb]

/-- The first call's output array as one function of the arrays the call finds: aggregated features (window 0), own
    features (window 1), the two weight matrices (windows 2 and 4) and the bias row (window 3). -/
def G0 (c : Dev nD) : S100000x128.Idx → EReal :=
  arr2 (dense1 (V c (Pipeline.arrRef spec0 0)) (V c (Pipeline.arrRef spec0 1)) (V c (Pipeline.arrRef spec0 2)) (V c (Pipeline.arrRef spec0 4))
    (fun j => V c (Pipeline.arrRef spec0 3) (ix2 (0 : Fin 1) j)))

/-- The printed index maps, decided over the 20 grid points: the two feature windows move with the output window along
    the rows and stay at column block 0; the weights and the bias stay at block (0, 0). -/
theorem idx_facts0 : ∀ t : Fin cfg0.N, win0_0.index t (0 : Fin 2) = win0_5.index t (0 : Fin 2)
    ∧ win0_0.index t (1 : Fin 2) = 0
    ∧ win0_1.index t (0 : Fin 2) = win0_5.index t (0 : Fin 2)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 19 ∧ win0_5.index t (1 : Fin 2) = 0 :=
  (by decide +kernel : ∀ t : Fin grid0.N, _)

/-- Every row block is some grid point's. -/
theorem idx_onto0 : ∀ (q0 : Fin 20), ∃ t : Fin cfg0.N, win0_5.index t = ![q0.val, 0] :=
  (by decide +kernel : ∀ (q0 : Fin 20), ∃ t : Fin grid0.N, win0_5.index t = ![q0.val, 0])

/-- What point `t` writes back is block `t` of `G0`: the body's value at (p, q) of the block is `dense1` of the blocks
    at (p, q), and row `p` of a feature block is row `5000·(block index) + p` of its array. -/
theorem flushed0_eq (c : Dev nD) (t : Fin cfg0.N) :
    (dat0 (F := Ideal) V c).flushed 5 t = ((cfg0.win 5).blk t).view.read (Elt Ideal) (G0 V c) := by
  show (cfg0.win 5).cut (grid0.coords t) ((dat0 V c).after 5 t) = _
  rw [after0_5]
  unfold out0_5
  rw [View.canon_unit_zero hz0]
  simp only [View.ld_unit_zero (S := S5000x64) hz0, View.ld_unit_zero (S := S64x128) hz0, View.ld_unit_zero (S := S1x128) hz0]
  obtain ⟨e0, e1, e2, e3, e4, e5, e6, e7, e8, e9, e10, e11⟩ := idx_facts0 t
  funext y
  obtain ⟨p, q, rfl⟩ : ∃ (p : Fin 5000) (q : Fin 128), y = ix2 p q := ⟨y 0, y 1, eq_ix2 y⟩
  show k0_pay1 (iblk0 V c 0 t) (iblk0 V c 1 t) (iblk0 V c 2 t) (iblk0 V c 4 t) (iblk0 V c 3 t) (ix2 p q)
      = G0 V c (((cfg0.win 5).blk t).view.emb (ix2 p q))
  refine (pay0_apply _ _ _ _ _ p q).trans ?_
  have h0 : ((((cfg0.win 5).blk t).view.emb (ix2 p q)) 0).val = win0_5.index t (0 : Fin 2) * 5000 + p.val := by
    show win0_5.index t (0 : Fin 2) * 5000 + 1 * p.val = _; omega
  have h1 : ((((cfg0.win 5).blk t).view.emb (ix2 p q)) 1).val = q.val := by
    show win0_5.index t (1 : Fin 2) * 128 + 1 * q.val = _; omega
  generalize ((cfg0.win 5).blk t).view.emb (ix2 p q) = i at h0 h1
  unfold G0
  show _ = dense1 _ _ _ _ _ (i 0) (i 1)
  refine dense1_local (V c (Pipeline.arrRef spec0 0)) (V c (Pipeline.arrRef spec0 1)) (iblk0 V c 0 t) (iblk0 V c 1 t)
    (V c (Pipeline.arrRef spec0 2)) (V c (Pipeline.arrRef spec0 4)) (iblk0 V c 2 t) (iblk0 V c 4 t)
    (fun j => V c (Pipeline.arrRef spec0 3) (ix2 (0 : Fin 1) j)) (fun j => iblk0 V c 3 t (ix2 (0 : Fin 1) j))
    (i 0) p (i 1) q (Fin.ext h1.symm) ?_ ?_ ?_ ?_ ?_
  · intro k
    show V c (Pipeline.arrRef spec0 0) (((cfg0.win 0).blk t).view.emb (ix2 p k)) = V c (Pipeline.arrRef spec0 0) (ix2 (i 0) k)
    refine congrArg _ (funext fun a => Fin.ext ?_)
    match a with
    | ⟨0, _⟩ => show win0_0.index t (0 : Fin 2) * 5000 + 1 * p.val = (i 0).val; omega
    | ⟨1, _⟩ => show win0_0.index t (1 : Fin 2) * 64 + 1 * k.val = k.val; omega
  · intro k
    show V c (Pipeline.arrRef spec0 1) (((cfg0.win 1).blk t).view.emb (ix2 p k)) = V c (Pipeline.arrRef spec0 1) (ix2 (i 0) k)
    refine congrArg _ (funext fun a => Fin.ext ?_)
    match a with
    | ⟨0, _⟩ => show win0_1.index t (0 : Fin 2) * 5000 + 1 * p.val = (i 0).val; omega
    | ⟨1, _⟩ => show win0_1.index t (1 : Fin 2) * 64 + 1 * k.val = k.val; omega
  · intro k
    show V c (Pipeline.arrRef spec0 2) (((cfg0.win 2).blk t).view.emb (ix2 k (i 1))) = V c (Pipeline.arrRef spec0 2) (ix2 k (i 1))
    refine congrArg _ (funext fun a => Fin.ext ?_)
    match a with
    | ⟨0, _⟩ => show win0_2.index t (0 : Fin 2) * 64 + 1 * k.val = k.val; omega
    | ⟨1, _⟩ => show win0_2.index t (1 : Fin 2) * 128 + 1 * (i 1).val = (i 1).val; omega
  · intro k
    show V c (Pipeline.arrRef spec0 4) (((cfg0.win 4).blk t).view.emb (ix2 k (i 1))) = V c (Pipeline.arrRef spec0 4) (ix2 k (i 1))
    refine congrArg _ (funext fun a => Fin.ext ?_)
    match a with
    | ⟨0, _⟩ => show win0_4.index t (0 : Fin 2) * 64 + 1 * k.val = k.val; omega
    | ⟨1, _⟩ => show win0_4.index t (1 : Fin 2) * 128 + 1 * (i 1).val = (i 1).val; omega
  · show V c (Pipeline.arrRef spec0 3) (((cfg0.win 3).blk t).view.emb (ix2 (0 : Fin 1) (i 1))) = V c (Pipeline.arrRef spec0 3) (ix2 (0 : Fin 1) (i 1))
    refine congrArg _ (funext fun a => Fin.ext ?_)
    match a with
    | ⟨0, _⟩ => show win0_3.index t (0 : Fin 2) * 1 + 1 * 0 = 0; omega
    | ⟨1, _⟩ => show win0_3.index t (1 : Fin 2) * 128 + 1 * (i 1).val = (i 1).val; omega

/-- An index of the output array is in point `t`'s block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- Every index of the output array is in some point's block: row `r` is in block `r / 5000`. -/
theorem cover0 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := idx_onto0 ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The first call's output array after all its write-backs is `G0` of the arrays the call finds. -/
theorem final0 (c : Dev nD) : (dat0 (F := Ideal) V c).arrAt 5 cfg0.N = G0 V c :=
  (dat0 V c).arrAt_eq_of_cover 5 (G0 V c) (fun t _ => flushed0_eq V c t) cover0

end Cert.Sage.Kernel

end
-- ==== Proof.Region1.lean ====
/-
  The second layer's pallas_call, read as one whole-array function.

  The same cut as the first call: 20 blocks of 5000 nodes; at block `t` the body sees rows 5000·t … 5000·t + 4999 of the
  aggregated hidden features and of the nodes' own hidden features, the whole of both weight matrices and of the bias
  row, and writes the same rows of the output. The row log-softmax makes every channel of an output row depend on ALL
  channels of that row's pre-activations, but still on that node's two input rows only (`dense2_local`), so what block
  `t` writes back is block `t` of ONE function of the arrays the call finds (`flushed1_eq`): `G1`, whose entry at
  (r, j) is `dense2` of those arrays at (r, j). The blocks cover every row (`cover1`), so after all write-backs the
  output array is `G1` (`final1`). Stated for any contents `V` of the buffers at the call's entry.
-/
import proofs.«133821_j20117626814731_1_alg».proof.Proof.Gen.KernelIdeal.Frame
import proofs.«133821_j20117626814731_1_alg».proof.Proof.RowSpec
import proofs.«133821_j20117626814731_1_alg».proof.Proof.KernelPayload
import Idealize.ShloMosaic.Lib.Pipeline.Value

set_option maxRecDepth 16384

noncomputable section

open scoped BigOperators

namespace Cert.Sage.Kernel

open Cert.KernelIdeal Cert.KernelIdeal.Gen Idealize.ShloMosaic Idealize.ShloMosaic.TcCoe Idealize.SL.Sem Idealize.ShloMosaic.ValueIdx Cert.Sage
open Idealize.ShloMosaic.Pipeline (Dat)

variable (V : (c : Dev nD) → (b : Ref sig .tc) → Buf (Elt Ideal) ((c : Thread nD τ).loc b))

/-- The offset of a load or store of a whole buffer is zero on both axes. -/
theorem hz1 : (![0, 0] : Fin 2 → Nat) = fun _ => 0 := funext fun a => by fin_cases a <;> rfl

/-- Row `r` of the second layer's result depends on row `r` of the two feature matrices only (and on all of the
    weights and the bias: the log-softmax reads the node's whole row of pre-activations). -/
theorem dense2_local {R R' K N : ℕ} (A X : (⟨2, ![R, K]⟩ : Shape).Idx → EReal) (A' X' : (⟨2, ![R', K]⟩ : Shape).Idx → EReal)
    (WL WR WL' WR' : (⟨2, ![K, N]⟩ : Shape).Idx → EReal) (bias bias' : Fin N → EReal) (r : Fin R) (r' : Fin R') (j j' : Fin N)
    (hj : j' = j)
    (hA : ∀ k, A' (ix2 r' k) = A (ix2 r k)) (hX : ∀ k, X' (ix2 r' k) = X (ix2 r k))
    (hL : ∀ k n, WL' (ix2 k n) = WL (ix2 k n)) (hR : ∀ k n, WR' (ix2 k n) = WR (ix2 k n)) (hb : ∀ n, bias' n = bias n) :
    dense2 A' X' WL' WR' bias' r' j' = dense2 A X WL WR bias r j := by
  subst hj
  have hp : pre A' X' WL' WR' bias' r' = pre A X WL WR bias r := by
    funext n
    unfold pre lin
    simp only [hA, hX, hL, hR, hb]
  unfold dense2
  rw [hp]

/-- The second call's output array as one function of the arrays the call finds: aggregated hidden features (window
    0), own hidden features (window 1), the two weight matrices (windows 2 and 4) and the bias row (window 3). -/
def G1 (c : Dev nD) : S100000x40.Idx → EReal :=
  arr2 (dense2 (V c (Pipeline.arrRef spec1 0)) (V c (Pipeline.arrRef spec1 1)) (V c (Pipeline.arrRef spec1 2)) (V c (Pipeline.arrRef spec1 4))
    (fun j => V c (Pipeline.arrRef spec1 3) (ix2 (0 : Fin 1) j)))

/-- The printed index maps, decided over the 20 grid points: the two feature windows move with the output window along
    the rows and stay at column block 0; the weights and the bias stay at block (0, 0). -/
theorem idx_facts1 : ∀ t : Fin cfg1.N, win1_0.index t (0 : Fin 2) = win1_5.index t (0 : Fin 2)
    ∧ win1_0.index t (1 : Fin 2) = 0
    ∧ win1_1.index t (0 : Fin 2) = win1_5.index t (0 : Fin 2)
    ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 19 ∧ win1_5.index t (1 : Fin 2) = 0 :=
  (by decide +kernel : ∀ t : Fin grid1.N, _)

/-- Every row block is some grid point's. -/
theorem idx_onto1 : ∀ (q0 : Fin 20), ∃ t : Fin cfg1.N, win1_5.index t = ![q0.val, 0] :=
  (by decide +kernel : ∀ (q0 : Fin 20), ∃ t : Fin grid1.N, win1_5.index t = ![q0.val, 0])

set_option maxHeartbeats 1000000 in
/-- What point `t` writes back is block `t` of `G1`: the body's value at (p, q) of the block is `dense2` of the blocks
    at (p, q), and row `p` of a feature block is row `5000·(block index) + p` of its array. -/
theorem flushed1_eq (c : Dev nD) (t : Fin cfg1.N) :
    (dat1 (F := Ideal) V c).flushed 5 t = ((cfg1.win 5).blk t).view.read (Elt Ideal) (G1 V c) := by
  show (cfg1.win 5).cut (grid1.coords t) ((dat1 V c).after 5 t) = _
  rw [after1_5]
  unfold out1_5
  rw [View.canon_unit_zero hz1]
  simp only [View.ld_unit_zero (S := S5000x128) hz1, View.ld_unit_zero (S := S128x40) hz1, View.ld_unit_zero (S := S1x40) hz1]
  obtain ⟨e0, e1, e2, e3, e4, e5, e6, e7, e8, e9, e10, e11⟩ := idx_facts1 t
  funext y
  obtain ⟨p, q, rfl⟩ : ∃ (p : Fin 5000) (q : Fin 40), y = ix2 p q := ⟨y 0, y 1, eq_ix2 y⟩
  show k1_pay1 (iblk1 V c 0 t) (iblk1 V c 1 t) (iblk1 V c 2 t) (iblk1 V c 4 t) (iblk1 V c 3 t) (ix2 p q)
      = G1 V c (((cfg1.win 5).blk t).view.emb (ix2 p q))
  refine (pay1_apply _ _ _ _ _ p q).trans ?_
  have h0 : ((((cfg1.win 5).blk t).view.emb (ix2 p q)) 0).val = win1_5.index t (0 : Fin 2) * 5000 + p.val := by
    show win1_5.index t (0 : Fin 2) * 5000 + 1 * p.val = _; omega
  have h1 : ((((cfg1.win 5).blk t).view.emb (ix2 p q)) 1).val = q.val := by
    show win1_5.index t (1 : Fin 2) * 40 + 1 * q.val = _; omega
  generalize ((cfg1.win 5).blk t).view.emb (ix2 p q) = i at h0 h1
  unfold G1
  show _ = dense2 _ _ _ _ _ (i 0) (i 1)
  refine dense2_local (V c (Pipeline.arrRef spec1 0)) (V c (Pipeline.arrRef spec1 1)) (iblk1 V c 0 t) (iblk1 V c 1 t)
    (V c (Pipeline.arrRef spec1 2)) (V c (Pipeline.arrRef spec1 4)) (iblk1 V c 2 t) (iblk1 V c 4 t)
    (fun j => V c (Pipeline.arrRef spec1 3) (ix2 (0 : Fin 1) j)) (fun j => iblk1 V c 3 t (ix2 (0 : Fin 1) j))
    (i 0) p (i 1) q (Fin.ext h1.symm) ?_ ?_ ?_ ?_ ?_
  · intro k
    show V c (Pipeline.arrRef spec1 0) (((cfg1.win 0).blk t).view.emb (ix2 p k)) = V c (Pipeline.arrRef spec1 0) (ix2 (i 0) k)
    refine congrArg _ (funext fun a => Fin.ext ?_)
    match a with
    | ⟨0, _⟩ => show win1_0.index t (0 : Fin 2) * 5000 + 1 * p.val = (i 0).val; omega
    | ⟨1, _⟩ => show win1_0.index t (1 : Fin 2) * 128 + 1 * k.val = k.val; omega
  · intro k
    show V c (Pipeline.arrRef spec1 1) (((cfg1.win 1).blk t).view.emb (ix2 p k)) = V c (Pipeline.arrRef spec1 1) (ix2 (i 0) k)
    refine congrArg _ (funext fun a => Fin.ext ?_)
    match a with
    | ⟨0, _⟩ => show win1_1.index t (0 : Fin 2) * 5000 + 1 * p.val = (i 0).val; omega
    | ⟨1, _⟩ => show win1_1.index t (1 : Fin 2) * 128 + 1 * k.val = k.val; omega
  · intro k n
    show V c (Pipeline.arrRef spec1 2) (((cfg1.win 2).blk t).view.emb (ix2 k n)) = V c (Pipeline.arrRef spec1 2) (ix2 k n)
    refine congrArg _ (funext fun a => Fin.ext ?_)
    match a with
    | ⟨0, _⟩ => show win1_2.index t (0 : Fin 2) * 128 + 1 * k.val = k.val; omega
    | ⟨1, _⟩ => show win1_2.index t (1 : Fin 2) * 40 + 1 * n.val = n.val; omega
  · intro k n
    show V c (Pipeline.arrRef spec1 4) (((cfg1.win 4).blk t).view.emb (ix2 k n)) = V c (Pipeline.arrRef spec1 4) (ix2 k n)
    refine congrArg _ (funext fun a => Fin.ext ?_)
    match a with
    | ⟨0, _⟩ => show win1_4.index t (0 : Fin 2) * 128 + 1 * k.val = k.val; omega
    | ⟨1, _⟩ => show win1_4.index t (1 : Fin 2) * 40 + 1 * n.val = n.val; omega
  · intro n
    show V c (Pipeline.arrRef spec1 3) (((cfg1.win 3).blk t).view.emb (ix2 (0 : Fin 1) n)) = V c (Pipeline.arrRef spec1 3) (ix2 (0 : Fin 1) n)
    refine congrArg _ (funext fun a => Fin.ext ?_)
    match a with
    | ⟨0, _⟩ => show win1_3.index t (0 : Fin 2) * 1 + 1 * 0 = 0; omega
    | ⟨1, _⟩ => show win1_3.index t (1 : Fin 2) * 40 + 1 * n.val = n.val; omega

/-- An index of the output array is in point `t`'s block iff each coordinate is in the block's range on its axis. -/
theorem mem_blk1 (t : Fin cfg1.N) (i : S100000x40.Idx) :
    i ∈ ((cfg1.win 5).blk t).view.set ↔ ∀ a : Fin 2, win1_5.index t a * S5000x40.size a ≤ (i a).val ∧ (i a).val < win1_5.index t a * S5000x40.size a + S5000x40.size a := by
  show i ∈ ((View.whole main_v49).slice (win1_5.rect t)).set ↔ _
  rw [View.set_slice_whole, Rect.mem_set_unit]
  exact Iff.rfl

/-- Every index of the output array is in some point's block: row `r` is in block `r / 5000`. -/
theorem cover1 (i : S100000x40.Idx) : ∃ t : Fin cfg1.N, (cfg1.win 5).flush t = true ∧ i ∈ ((cfg1.win 5).blk t).view.set := by
  have hi0 : (i 0).val < 100000 := (i 0).isLt
  have hi1 : (i 1).val < 40 := (i 1).isLt
  obtain ⟨t, ht⟩ := idx_onto1 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 40 ≤ (i 1).val ∧ (i 1).val < win1_5.index t (1 : Fin 2) * 40 + 40; omega

/-- The second call's output array after all its write-backs is `G1` of the arrays the call finds. -/
theorem final1 (c : Dev nD) : (dat1 (F := Ideal) V c).arrAt 5 cfg1.N = G1 V c :=
  (dat1 V c).arrAt_eq_of_cover 5 (G1 V c) (fun t _ => flushed1_eq V c t) cover1

end Cert.Sage.Kernel

end
-- ==== Proof.KernelValue.lean ====
/-
  The idealized kernel program's result as one function of its arguments.

  @main runs: the host chain to the first layer's inputs; the first pallas_call; the host chain to the second layer's
  inputs; the second pallas_call. Reading the buffer contents at each boundary:
    * the first call finds the neighbourhood mean of `x` (`agg1`), `x` itself, the two transposed weight matrices and
      the bias as a one-row matrix, and leaves its output array at `hiddenK` — `dense1` of those, row by row;
    * the second call finds the neighbourhood mean of that hidden array (`agg2`, over the same edge list), the hidden
      array itself, the second layer's transposed weights and bias row, and leaves its output array at `outK` —
      `dense2` of those.
  The result buffer of @main is the second call's output array (`W4_out`).
-/
import proofs.«133821_j20117626814731_1_alg».proof.Proof.Gen.KernelIdeal.Frame
import proofs.«133821_j20117626814731_1_alg».proof.Proof.SegMean
import proofs.«133821_j20117626814731_1_alg».proof.Proof.Region0
import proofs.«133821_j20117626814731_1_alg».proof.Proof.Region1
import Idealize.ShloMosaic.Lib.StableHlo.Run

set_option maxRecDepth 16384

noncomputable section

namespace Cert.Sage.Kernel

open Cert.KernelIdeal Cert.KernelIdeal.Gen Idealize.ShloMosaic Idealize.ShloMosaic.TcCoe Idealize.SL.Sem Idealize.ShloMosaic.StableHlo
open Idealize.ShloMosaic.ValueIdx Cert.Sage Cert.Sage.Agg

variable (m : (ℓ : Loc nD τ sig) → Buf (Elt Ideal) ℓ) (ρ : Dev nD → PrngReg)

/-! ## What the first call finds -/

set_option maxHeartbeats 2000000 in
/-- The aggregated input: the neighbourhood mean of `x` over the edge list. -/
theorem V1_agg (c : Dev nD) : V1 m ρ c (Pipeline.arrRef spec0 0)
    = agg1 (m ((c : Thread nD τ).loc main_arg0)) (srcOf (m ((c : Thread nD τ).loc main_arg1))) (dstOf (m ((c : Thread nD τ).loc main_arg1))) := by
  show StableHlo.after hostOps0 (W0 m ρ c) (Proc.devRef .tc main_v22) = _
  after_results <;> rfl

/-- The nodes' own features: `x`, untouched by the host chain. -/
theorem V1_x (c : Dev nD) : V1 m ρ c (Pipeline.arrRef spec0 1) = m ((c : Thread nD τ).loc main_arg0) := by
  show StableHlo.after hostOps0 (W0 m ρ c) (Proc.devRef .tc main_arg0) = _
  after_results <;> rfl

/-- The neighbours' weight matrix, transposed. -/
theorem V1_wl (c : Dev nD) : V1 m ρ c (Pipeline.arrRef spec0 2) = transpose S64x128 [1, 0] (m ((c : Thread nD τ).loc main_arg2)) transposes_S128x64_S64x128_1_0 := by
  show StableHlo.after hostOps0 (W0 m ρ c) (Proc.devRef .tc main_v23) = _
  after_results <;> rfl

/-- The bias, as a one-row matrix. -/
theorem V1_b (c : Dev nD) : V1 m ρ c (Pipeline.arrRef spec0 3) = shapeCast _ (m ((c : Thread nD τ).loc main_arg3)) shapeCasts_S128_S1x128 := by
  show StableHlo.after hostOps0 (W0 m ρ c) (Proc.devRef .tc main_v25) = _
  after_results <;> rfl

/-- The root weight matrix, transposed. -/
theorem V1_wr (c : Dev nD) : V1 m ρ c (Pipeline.arrRef spec0 4) = transpose S64x128 [1, 0] (m ((c : Thread nD τ).loc main_arg4)) transposes_S128x64_S64x128_1_0 := by
  show StableHlo.after hostOps0 (W0 m ρ c) (Proc.devRef .tc main_v24) = _
  after_results <;> rfl

/-! ## The hidden features the first call leaves -/

/-- The hidden features: the first layer of the arguments, row by row. -/
def hiddenK (c : Dev nD) : S100000x128.Idx → EReal :=
  arr2 (dense1
    (agg1 (m ((c : Thread nD τ).loc main_arg0)) (srcOf (m ((c : Thread nD τ).loc main_arg1))) (dstOf (m ((c : Thread nD τ).loc main_arg1))))
    (m ((c : Thread nD τ).loc main_arg0))
    (transpose S64x128 [1, 0] (m ((c : Thread nD τ).loc main_arg2)) transposes_S128x64_S64x128_1_0)
    (transpose S64x128 [1, 0] (m ((c : Thread nD τ).loc main_arg4)) transposes_S128x64_S64x128_1_0)
    (fun j => shapeCast S1x128 (m ((c : Thread nD τ).loc main_arg3)) shapeCasts_S128_S1x128 (ix2 (0 : Fin 1) j)))

/-- After the first call its output array holds the hidden features. -/
theorem W2_hidden (c : Dev nD) : W2 m ρ c (Proc.devRef .tc main_v26) = hiddenK m c := by
  refine (W2_arr m ρ c 5).trans ((final0 (V1 m ρ) c).trans ?_)
  unfold G0 hiddenK
  rw [V1_agg m ρ c, V1_x m ρ c, V1_wl m ρ c, V1_wr m ρ c, V1_b m ρ c]

/-- The first call writes none of the host chain's other buffers: the sources … -/
theorem W2_src (c : Dev nD) : W2 m ρ c (Proc.devRef .tc main_v1) = srcOf (m ((c : Thread nD τ).loc main_arg1)) :=
  (W2_of_ne m ρ c main_v1 (by decide)).trans (by
    show StableHlo.after hostOps0 (W0 m ρ c) (Proc.devRef .tc main_v1) = _
    after_results <;> rfl)

/-- … the destinations … -/
theorem W2_dst (c : Dev nD) : W2 m ρ c (Proc.devRef .tc main_v3) = dstOf (m ((c : Thread nD τ).loc main_arg1)) :=
  (W2_of_ne m ρ c main_v3 (by decide)).trans (by
    show StableHlo.after hostOps0 (W0 m ρ c) (Proc.devRef .tc main_v3) = _
    after_results <;> rfl)

/-- … and the second layer's three parameter arrays. -/
theorem W2_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results <;> rfl)
theorem W2_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results <;> rfl)
theorem W2_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results <;> rfl)

/-! ## What the second call finds -/

set_option maxHeartbeats 2000000 in
/-- The aggregated input: the neighbourhood mean of the hidden features over the same edge list. -/
theorem V3_agg (c : Dev nD) : V3 m ρ c (Pipeline.arrRef spec1 0)
    = agg2 (hiddenK m c) (srcOf (m ((c : Thread nD τ).loc main_arg1))) (dstOf (m ((c : Thread nD τ).loc main_arg1))) := by
  show StableHlo.after hostOps1 (W2 m ρ c) (Proc.devRef .tc main_v45) = _
  after_results
  rw [W2_hidden m ρ c, W2_src m ρ c, W2_dst m ρ c]
  rfl

/-- The nodes' own hidden features. -/
theorem V3_h (c : Dev nD) : V3 m ρ c (Pipeline.arrRef spec1 1) = hiddenK m c := by
  show StableHlo.after hostOps1 (W2 m ρ c) (Proc.devRef .tc main_v26) = _
  after_results
  exact W2_hidden m ρ c

/-- The neighbours' weight matrix, transposed. -/
theorem V3_wl (c : Dev nD) : V3 m ρ c (Pipeline.arrRef spec1 2) = transpose S128x40 [1, 0] (m ((c : Thread nD τ).loc main_arg5)) transposes_S40x128_S128x40_1_0 := by
  show StableHlo.after hostOps1 (W2 m ρ c) (Proc.devRef .tc main_v46) = _
  after_results
  rw [W2_arg5 m ρ c]

/-- The bias, as a one-row matrix. -/
theorem V3_b (c : Dev nD) : V3 m ρ c (Pipeline.arrRef spec1 3) = shapeCast _ (m ((c : Thread nD τ).loc main_arg6)) shapeCasts_S40_S1x40 := by
  show StableHlo.after hostOps1 (W2 m ρ c) (Proc.devRef .tc main_v48) = _
  after_results
  rw [W2_arg6 m ρ c]
  rfl

/-- The root weight matrix, transposed. -/
theorem V3_wr (c : Dev nD) : V3 m ρ c (Pipeline.arrRef spec1 4) = transpose S128x40 [1, 0] (m ((c : Thread nD τ).loc main_arg7)) transposes_S40x128_S128x40_1_0 := by
  show StableHlo.after hostOps1 (W2 m ρ c) (Proc.devRef .tc main_v47) = _
  after_results
  rw [W2_arg7 m ρ c]

/-! ## The result -/

/-- The program's result: the second layer of the hidden features, row by row. -/
def outK (c : Dev nD) : S100000x40.Idx → EReal :=
  arr2 (dense2
    (agg2 (hiddenK m c) (srcOf (m ((c : Thread nD τ).loc main_arg1))) (dstOf (m ((c : Thread nD τ).loc main_arg1))))
    (hiddenK m c)
    (transpose S128x40 [1, 0] (m ((c : Thread nD τ).loc main_arg5)) transposes_S40x128_S128x40_1_0)
    (transpose S128x40 [1, 0] (m ((c : Thread nD τ).loc main_arg7)) transposes_S40x128_S128x40_1_0)
    (fun j => shapeCast S1x40 (m ((c : Thread nD τ).loc main_arg6)) shapeCasts_S40_S1x40 (ix2 (0 : Fin 1) j)))

/-- After the second call, the result buffer holds `outK`. -/
theorem W4_out (c : Dev nD) : W4 m ρ c (Proc.devRef .tc main_v49) = outK m c := by
  refine (W4_arr m ρ c 5).trans ((final1 (V3 m ρ) c).trans ?_)
  unfold G1 outK
  rw [V3_agg m ρ c, V3_h m ρ c, V3_wl m ρ c, V3_wr m ρ c, V3_b m ρ c]

end Cert.Sage.Kernel

end
-- ==== Proof.Network.lean ====
/-
  The whole two-layer network as one function of the eight arguments, at the ideal instance.

  `hiddenF`: the first layer — the neighbourhood mean of `x` over the edge list and `x` itself through the first dense
  layer (weights transposed, bias as a row), clamped at zero. `outF`: the second layer — the neighbourhood mean of the
  hidden features over the same edge list and the hidden features themselves through the second dense layer, then the
  row log-softmax. Both programs compute `outF` of their arguments.
-/
import proofs.«133821_j20117626814731_1_alg».proof.Proof.SegMean
import proofs.«133821_j20117626814731_1_alg».proof.Proof.RowSpec

noncomputable section

namespace Cert.Sage

open Cert.KernelIdeal Cert.KernelIdeal.Gen Idealize.ShloMosaic Idealize.ShloMosaic.ValueIdx Cert.Sage.Agg

/-- The hidden features. -/
def hiddenF (x : (⟨S100000x64, .f32⟩ : BufTy).Contents (Elt Ideal)) (e : (⟨S2x1600000, .i32⟩ : BufTy).Contents (Elt Ideal))
    (w1l : (⟨S128x64, .f32⟩ : BufTy).Contents (Elt Ideal)) (b1 : (⟨S128, .f32⟩ : BufTy).Contents (Elt Ideal))
    (w1r : (⟨S128x64, .f32⟩ : BufTy).Contents (Elt Ideal)) : S100000x128.Idx → EReal :=
  arr2 (dense1 (agg1 x (srcOf e) (dstOf e)) x
    (transpose S64x128 [1, 0] w1l transposes_S128x64_S64x128_1_0)
    (transpose S64x128 [1, 0] w1r transposes_S128x64_S64x128_1_0)
    (fun j => shapeCast S1x128 b1 shapeCasts_S128_S1x128 (ix2 (0 : Fin 1) j)))

/-- The network's output. -/
def outF (x : (⟨S100000x64, .f32⟩ : BufTy).Contents (Elt Ideal)) (e : (⟨S2x1600000, .i32⟩ : BufTy).Contents (Elt Ideal))
    (w1l : (⟨S128x64, .f32⟩ : BufTy).Contents (Elt Ideal)) (b1 : (⟨S128, .f32⟩ : BufTy).Contents (Elt Ideal))
    (w1r : (⟨S128x64, .f32⟩ : BufTy).Contents (Elt Ideal))
    (w2l : (⟨S40x128, .f32⟩ : BufTy).Contents (Elt Ideal)) (b2 : (⟨S40, .f32⟩ : BufTy).Contents (Elt Ideal))
    (w2r : (⟨S40x128, .f32⟩ : BufTy).Contents (Elt Ideal)) : S100000x40.Idx → EReal :=
  arr2 (dense2 (agg2 (hiddenF x e w1l b1 w1r) (srcOf e) (dstOf e)) (hiddenF x e w1l b1 w1r)
    (transpose S128x40 [1, 0] w2l transposes_S40x128_S128x40_1_0)
    (transpose S128x40 [1, 0] w2r transposes_S40x128_S128x40_1_0)
    (fun j => shapeCast S1x40 b2 shapeCasts_S40_S1x40 (ix2 (0 : Fin 1) j)))

end Cert.Sage

end
-- ==== Proof.RefRunA.lean ====
/-
  The reference's first stretch of host operations, read by itself: from any buffer contents `W` it leaves the first
  neighbourhood mean and the edge list's two rows at their stage functions of the arguments' contents in `W`, and the
  arguments it does not write as they were.
-/
import proofs.«133821_j20117626814731_1_alg».proof.Proof.RefReadP
import Idealize.ShloMosaic.Lib.StableHlo.Run

set_option maxRecDepth 16384

noncomputable section

namespace Cert.Sage.Ref

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## Stretch A: the edge list's rows and the first neighbourhood mean -/

set_option maxHeartbeats 4000000 in
theorem A_v22 (W : Valuation τ sig (Elt F)) : after opsA W (Proc.devRef .tc main_v22)
    = val_main_v22 (F := F) (W (Proc.devRef .tc main_arg0)) (W (Proc.devRef .tc main_arg1)) := by
  after_results
  rfl
theorem A_v1 (W : Valuation τ sig (Elt F)) : after opsA W (Proc.devRef .tc main_v1) = val_main_v1 (F := F) (W (Proc.devRef .tc main_arg1)) := by
  after_results
  rfl
theorem A_v3 (W : Valuation τ sig (Elt F)) : after opsA W (Proc.devRef .tc main_v3) = val_main_v3 (F := F) (W (Proc.devRef .tc main_arg1)) := by
  after_results
  rfl
theorem A_arg0 (W : Valuation τ sig (Elt F)) : after opsA W (Proc.devRef .tc main_arg0) = W (Proc.devRef .tc main_arg0) := by
  after_results
theorem A_arg2 (W : Valuation τ sig (Elt F)) : after opsA W (Proc.devRef .tc main_arg2) = W (Proc.devRef .tc main_arg2) := by
  after_results
theorem A_arg3 (W : Valuation τ sig (Elt F)) : after opsA W (Proc.devRef .tc main_arg3) = W (Proc.devRef .tc main_arg3) := by
  after_results
theorem A_arg4 (W : Valuation τ sig (Elt F)) : after opsA W (Proc.devRef .tc main_arg4) = W (Proc.devRef .tc main_arg4) := by
  after_results
theorem A_arg5 (W : Valuation τ sig (Elt F)) : after opsA W (Proc.devRef .tc main_arg5) = W (Proc.devRef .tc main_arg5) := by
  after_results
theorem A_arg6 (W : Valuation τ sig (Elt F)) : after opsA W (Proc.devRef .tc main_arg6) = W (Proc.devRef .tc main_arg6) := by
  after_results
theorem A_arg7 (W : Valuation τ sig (Elt F)) : after opsA W (Proc.devRef .tc main_arg7) = W (Proc.devRef .tc main_arg7) := by
  after_results

end Cert.Sage.Ref

end
-- ==== Proof.RefRunB.lean ====
/-
  The reference's second stretch (the first dense layer and its relu), read by itself: if the buffers it reads hold the
  earlier stages, it leaves the hidden features at their stage function; the buffers later stretches read stay as they
  were. The relu is an inlined call: its values are moved between the call's typed references and the buffers' own types,
  the identity at literal references.
-/
import proofs.«133821_j20117626814731_1_alg».proof.Proof.RefReadP
import Idealize.ShloMosaic.Lib.StableHlo.Run

set_option maxRecDepth 16384

noncomputable section

namespace Cert.Sage.Ref

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## Stretch B: the first dense layer and its relu -/

theorem B_v31 (W : Valuation τ sig (Elt F)) (x0 : (⟨S100000x64, .f32⟩ : BufTy).Contents (Elt F)) (x1 : (⟨S2x1600000, .i32⟩ : BufTy).Contents (Elt F))
    (h22 : W (Proc.devRef .tc main_v22) = val_main_v22 (F := F) x0 x1) (h0 : W (Proc.devRef .tc main_arg0) = x0) :
    after opsB W (Proc.devRef .tc main_v31)
      = val_main_v31 (F := F) x0 x1 (W (Proc.devRef .tc main_arg2)) (W (Proc.devRef .tc main_arg3)) (W (Proc.devRef .tc main_arg4)) := by
  after_results
  simp only [TRef.ofBuf, TRef.toBuf, cast_eq]
  rw [h22, h0]
  rfl
theorem B_v1 (W : Valuation τ sig (Elt F)) : after opsB W (Proc.devRef .tc main_v1) = W (Proc.devRef .tc main_v1) := by
  after_results
theorem B_v3 (W : Valuation τ sig (Elt F)) : after opsB W (Proc.devRef .tc main_v3) = W (Proc.devRef .tc main_v3) := by
  after_results
theorem B_arg5 (W : Valuation τ sig (Elt F)) : after opsB W (Proc.devRef .tc main_arg5) = W (Proc.devRef .tc main_arg5) := by
  after_results
theorem B_arg6 (W : Valuation τ sig (Elt F)) : after opsB W (Proc.devRef .tc main_arg6) = W (Proc.devRef .tc main_arg6) := by
  after_results
theorem B_arg7 (W : Valuation τ sig (Elt F)) : after opsB W (Proc.devRef .tc main_arg7) = W (Proc.devRef .tc main_arg7) := by
  after_results

end Cert.Sage.Ref

end
-- ==== Proof.RefRunC.lean ====
/-
  The reference's third stretch (the second neighbourhood mean), read by itself: if the hidden features and the edge
  list's rows hold their stages, it leaves the aggregated hidden features at their stage function; the buffers the last
  stretch reads stay as they were.
-/
import proofs.«133821_j20117626814731_1_alg».proof.Proof.RefReadP
import Idealize.ShloMosaic.Lib.StableHlo.Run

set_option maxRecDepth 16384

noncomputable section

namespace Cert.Sage.Ref

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## Stretch C: the second neighbourhood mean -/

set_option maxHeartbeats 4000000 in
theorem C_v50 (W : Valuation τ sig (Elt F)) (x0 : (⟨S100000x64, .f32⟩ : BufTy).Contents (Elt F)) (x1 : (⟨S2x1600000, .i32⟩ : BufTy).Contents (Elt F))
    (x2 : (⟨S128x64, .f32⟩ : BufTy).Contents (Elt F)) (x3 : (⟨S128, .f32⟩ : BufTy).Contents (Elt F)) (x4 : (⟨S128x64, .f32⟩ : BufTy).Contents (Elt F))
    (h31 : W (Proc.devRef .tc main_v31) = val_main_v31 (F := F) x0 x1 x2 x3 x4)
    (h1 : W (Proc.devRef .tc main_v1) = val_main_v1 (F := F) x1) (h3 : W (Proc.devRef .tc main_v3) = val_main_v3 (F := F) x1) :
    after opsC W (Proc.devRef .tc main_v50) = val_main_v50 (F := F) x0 x1 x2 x3 x4 := by
  after_results
  rw [h31, h1, h3]
  rfl
theorem C_v31 (W : Valuation τ sig (Elt F)) : after opsC W (Proc.devRef .tc main_v31) = W (Proc.devRef .tc main_v31) := by
  after_results
theorem C_arg5 (W : Valuation τ sig (Elt F)) : after opsC W (Proc.devRef .tc main_arg5) = W (Proc.devRef .tc main_arg5) := by
  after_results
theorem C_arg6 (W : Valuation τ sig (Elt F)) : after opsC W (Proc.devRef .tc main_arg6) = W (Proc.devRef .tc main_arg6) := by
  after_results
theorem C_arg7 (W : Valuation τ sig (Elt F)) : after opsC W (Proc.devRef .tc main_arg7) = W (Proc.devRef .tc main_arg7) := by
  after_results

end Cert.Sage.Ref

end
-- ==== Proof.RefRunD.lean ====
/-
  The reference's fourth stretch (the second dense layer), read by itself: if the aggregated and the plain hidden
  features hold their stages, it leaves the second layer's pre-activations at their stage function.
-/
import proofs.«133821_j20117626814731_1_alg».proof.Proof.RefReadP
import Idealize.ShloMosaic.Lib.StableHlo.Run

set_option maxRecDepth 16384

noncomputable section

namespace Cert.Sage.Ref

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## Stretch D: the second dense layer -/

set_option maxHeartbeats 4000000 in
theorem D_v58 (W : Valuation τ sig (Elt F)) (x0 : (⟨S100000x64, .f32⟩ : BufTy).Contents (Elt F)) (x1 : (⟨S2x1600000, .i32⟩ : BufTy).Contents (Elt F))
    (x2 : (⟨S128x64, .f32⟩ : BufTy).Contents (Elt F)) (x3 : (⟨S128, .f32⟩ : BufTy).Contents (Elt F)) (x4 : (⟨S128x64, .f32⟩ : BufTy).Contents (Elt F))
    (h50 : W (Proc.devRef .tc main_v50) = val_main_v50 (F := F) x0 x1 x2 x3 x4)
    (h31 : W (Proc.devRef .tc main_v31) = val_main_v31 (F := F) x0 x1 x2 x3 x4) :
    after opsD W (Proc.devRef .tc main_v58)
      = val_main_v58 (F := F) x0 x1 x2 x3 x4 (W (Proc.devRef .tc main_arg5)) (W (Proc.devRef .tc main_arg6)) (W (Proc.devRef .tc main_arg7)) := by
  after_results
  rw [h50, h31]
  rfl

end Cert.Sage.Ref

end
-- ==== Proof.RefRunE.lean ====
/-
  The reference's last stretch (the row log-softmax, an inlined call), read by itself over ANY contents `y` of the
  pre-activation buffer: it leaves the result at `lsm y`. Inside the call every value is moved from the call's value
  type to its buffer's own type when written and back when read: a round trip, the identity for any typed reference
  (`ofBuf_toBuf`); at the call's two ends — the pre-activations read, the result written — the two types are the same
  type and the move is the identity (`ofBuf_v58`, `toBuf_v59`). The reference's last stage IS `lsm` of its
  pre-activation stage (`v59_lsm`).
-/
import proofs.«133821_j20117626814731_1_alg».proof.Proof.RefReadP
import Idealize.ShloMosaic.Lib.StableHlo.Run

set_option maxRecDepth 16384

noncomputable section

namespace Cert.Sage.Ref

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## Stretch E: the row log-softmax -/

/-- Moving a value to a typed reference's buffer type and back is the identity. -/
theorem ofBuf_toBuf {Val : EltTy → Type} {T : BufTy} (x : TRef sig T) (v : T.Contents Val) : x.ofBuf (x.toBuf v) = v := by
  obtain ⟨r, h, h2, h3⟩ := x
  subst h
  rfl

/-- The pre-activation buffer's own type is the call's argument type: reading it is the identity. -/
theorem ofBuf_v58 (h1 : main_v58.ty = ⟨S100000x40, .f32⟩) (h2 : main_v58.space ≠ .host) (h3 : main_v58.isScoped = false)
    (v : (⟨S100000x40, .f32⟩ : BufTy).Contents (Elt F)) :
    (TRef.of (T := ⟨S100000x40, .f32⟩) main_v58 h1 h2 h3).ofBuf (Val := Elt F) v = v := eq_of_heq (cast_heq _ _)

/-- The result buffer's own type is the call's result type: writing it is the identity. -/
theorem toBuf_v59 (h1 : main_v59.ty = ⟨S100000x40, .f32⟩) (h2 : main_v59.space ≠ .host) (h3 : main_v59.isScoped = false)
    (v : (⟨S100000x40, .f32⟩ : BufTy).Contents (Elt F)) :
    (TRef.of (T := ⟨S100000x40, .f32⟩) main_v59 h1 h2 h3).toBuf (Val := Elt F) v = v := eq_of_heq (cast_heq _ _)

/-- The row log-softmax as the reference spells it: `z = y - max(-inf, rowmax y)`, result `z - log (rowsum (exp z))`. -/
def lsm (y : (⟨S100000x40, .f32⟩ : BufTy).Contents (Elt F)) : (⟨S100000x40, .f32⟩ : BufTy).Contents (Elt F) :=
  subf
    (subf y
      (broadcastInDim S100000x40 ![0, 1] bcast_S100000x1_S100000x40_0_1
        (broadcastInDim S100000x1 ![0] bcast_S100000_S100000x1_0
          (maximumf (broadcastInDim S100000 ![] bcast_S_S100000 (constant (F := F) S_ .f32 0xFF800000#32))
            (Host.reduce FloatOps.maximumf y (constant (F := F) S_ .f32 0xFF800000#32) reducesTo_S100000x40_S100000_d1 h_S_)))))
    (broadcastInDim S100000x40 ![0, 1] bcast_S100000x1_S100000x40_0_1
      (Host.log
        (broadcastInDim S100000x1 ![0] bcast_S100000_S100000x1_0
          (Host.reduceAdd
            (Host.exp
              (subf y
                (broadcastInDim S100000x40 ![0, 1] bcast_S100000x1_S100000x40_0_1
                  (broadcastInDim S100000x1 ![0] bcast_S100000_S100000x1_0
                    (maximumf (broadcastInDim S100000 ![] bcast_S_S100000 (constant (F := F) S_ .f32 0xFF800000#32))
                      (Host.reduce FloatOps.maximumf y (constant (F := F) S_ .f32 0xFF800000#32) reducesTo_S100000x40_S100000_d1 h_S_))))))
            (constant (F := F) S_ .f32 0x00000000#32) reducesTo_S100000x40_S100000_d1 h_S_))))

/-- From any contents `y` of the pre-activation buffer, the stretch leaves the result buffer at `lsm y`. -/
theorem E_v59 (W : Valuation τ sig (Elt F)) (y : (⟨S100000x40, .f32⟩ : BufTy).Contents (Elt F)) (h58 : W (Proc.devRef .tc main_v58) = y) :
    after opsE W (Proc.devRef .tc main_v59) = lsm (F := F) y := by
  after_results
  rw [h58]
  simp only [ofBuf_toBuf]
  simp only [ofBuf_v58, toBuf_v59]
  rfl

/-- The reference's last stage is `lsm` of its pre-activation stage. -/
theorem v59_lsm (x0 : (⟨S100000x64, .f32⟩ : BufTy).Contents (Elt F)) (x1 : (⟨S2x1600000, .i32⟩ : BufTy).Contents (Elt F))
    (x2 : (⟨S128x64, .f32⟩ : BufTy).Contents (Elt F)) (x3 : (⟨S128, .f32⟩ : BufTy).Contents (Elt F)) (x4 : (⟨S128x64, .f32⟩ : BufTy).Contents (Elt F))
    (x5 : (⟨S40x128, .f32⟩ : BufTy).Contents (Elt F)) (x6 : (⟨S40, .f32⟩ : BufTy).Contents (Elt F)) (x7 : (⟨S40x128, .f32⟩ : BufTy).Contents (Elt F)) :
    val_main_v59 (F := F) x0 x1 x2 x3 x4 x5 x6 x7 = lsm (F := F) (val_main_v58 (F := F) x0 x1 x2 x3 x4 x5 x6 x7) := rfl

end Cert.Sage.Ref

end
-- ==== Proof.RefRun.lean ====
/-
  The reference program's run, read back stage by stage.

  @main is a straight line of 88 host operations. Cut into five stretches — the first neighbourhood mean, the first dense
  layer with its relu, the second neighbourhood mean, the second dense layer, its row log-softmax — each stretch is read
  by itself: what it leaves in the buffers later stretches read, as the stage functions of the arguments (the `val_`
  functions: one per operation, each a function of @main's arguments), given that the buffers it reads hold earlier
  stages; and that it leaves the other buffers alone. The stretches then compose (`after_ops_v59`): the result buffer
  ends at the last stage of the arguments. The run of the whole program follows from the library's theorem for a
  straight line of host operations.
-/
import proofs.«133821_j20117626814731_1_alg».proof.Proof.RefReadP
import Idealize.ShloMosaic.Lib.StableHlo.Run
import proofs.«133821_j20117626814731_1_alg».proof.Proof.RefRunA
import proofs.«133821_j20117626814731_1_alg».proof.Proof.RefRunB
import proofs.«133821_j20117626814731_1_alg».proof.Proof.RefRunC
import proofs.«133821_j20117626814731_1_alg».proof.Proof.RefRunD
import proofs.«133821_j20117626814731_1_alg».proof.Proof.RefRunE

set_option maxRecDepth 16384

noncomputable section

namespace Cert.Sage.Ref

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The contents after two stretches in a row are the second's from the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## The five stretches in a row -/

/-- After all 88 operations the result buffer holds the last stage of the launch contents of the arguments. -/
theorem after_ops_v59 (W : Valuation τ sig (Elt F)) : after ops W (Proc.devRef .tc main_v59)
    = val_main_v59 (F := F) (W (Proc.devRef .tc main_arg0)) (W (Proc.devRef .tc main_arg1)) (W (Proc.devRef .tc main_arg2)) (W (Proc.devRef .tc main_arg3))
        (W (Proc.devRef .tc main_arg4)) (W (Proc.devRef .tc main_arg5)) (W (Proc.devRef .tc main_arg6)) (W (Proc.devRef .tc main_arg7)) := by
  rw [ops_eq, after_app, after_app, after_app, after_app]
  -- stretch A
  have a22 := A_v22 W
  have a1 := A_v1 W
  have a3 := A_v3 W
  have a_0 := A_arg0 W
  have a_2 := A_arg2 W
  have a_3 := A_arg3 W
  have a_4 := A_arg4 W
  have a_5 := A_arg5 W
  have a_6 := A_arg6 W
  have a_7 := A_arg7 W
  generalize after opsA W = WA at a22 a1 a3 a_0 a_2 a_3 a_4 a_5 a_6 a_7 ⊢
  -- stretch B
  have b31 := B_v31 WA _ _ a22 a_0
  rw [a_2, a_3, a_4] at b31
  have b1 := (B_v1 WA).trans a1
  have b3 := (B_v3 WA).trans a3
  have b_5 := (B_arg5 WA).trans a_5
  have b_6 := (B_arg6 WA).trans a_6
  have b_7 := (B_arg7 WA).trans a_7
  generalize after opsB WA = WB at b31 b1 b3 b_5 b_6 b_7 ⊢
  -- stretch C
  have c50 := C_v50 WB _ _ _ _ _ b31 b1 b3
  have c31 := (C_v31 WB).trans b31
  have c_5 := (C_arg5 WB).trans b_5
  have c_6 := (C_arg6 WB).trans b_6
  have c_7 := (C_arg7 WB).trans b_7
  generalize after opsC WB = WC at c50 c31 c_5 c_6 c_7 ⊢
  -- stretch D
  have d58 := D_v58 WC _ _ _ _ _ c50 c31
  rw [c_5, c_6, c_7] at d58
  generalize after opsD WC = WD at d58 ⊢
  -- stretch E
  rw [E_v59 WD _ d58]
  exact (v59_lsm _ _ _ _ _ _ _ _).symm

/-! ## The run -/

set_option maxHeartbeats 8000000 in
/-- On every device, from any memory with zero counters: every weakly fair execution of the reference's @main
    terminates with the result buffer at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v59)
        = val_main_v59 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v59).trans (after_ops_v59 (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.Sage.Ref

end
-- ==== Proof.RefLayers.lean ====
/-
  The reference program's two dense layers, read at an index, at the ideal values.

  Layer 1. With `A` the mean of the neighbours' features, `X` the nodes' own features, `WL`, `WR` the two transposed
  weight matrices and `b` the bias row, the reference computes at node `r` and channel `j`
      max ((∑ₖ A r k · WL k j + b j) + ∑ₖ X r k · WR k j) 0,
  the bias added before the second product. Regrouping the three summands (addition of extended reals is commutative
  and associative) this is `dense1 A X WL WR b r j`.

  Layer 2. The same pre-activation `y r j` over the first layer's output, without the clamp, and then the row's
  log-softmax as the reference spells it: `m r` is the fold of `max` over the row from minus infinity, joined once more
  with minus infinity (which changes nothing); `z r j = y r j - m r`; the result is
  `z r j - log (0 + ∑ⱼ' exp (z r j'))`, the sum started from the zero literal. This is `dense2 … r j`.

  The aggregated matrices (the mean over the neighbours, a gather and two scatters deep) stay closed: nothing here
  depends on how they are computed.
-/
import proofs.«133821_j20117626814731_1_alg».proof.Proof.RefReadP
import proofs.«133821_j20117626814731_1_alg».proof.Proof.RowSpec

noncomputable section

open scoped BigOperators

namespace Cert.Sage.Ref

open Idealize.ShloMosaic Idealize.ShloMosaic.ValueIdx Cert.ReferenceIdeal Cert.ReferenceIdeal.ReadP Cert.Sage

/-! ## Layer 1 -/

/-- The first layer at node `r`, channel `j`: both products' index functions are (r, k) and (k, j), the bias is read
    at (0, j), and the three summands regroup to `lin`; the clamp's zero is the zero literal. -/
theorem ref_layer1 (x0 : (⟨S100000x64, .f32⟩ : BufTy).Contents (Elt Ideal)) (x1 : (⟨S2x1600000, .i32⟩ : BufTy).Contents (Elt Ideal)) (x2 : (⟨S128x64, .f32⟩ : BufTy).Contents (Elt Ideal)) (x3 : (⟨S128, .f32⟩ : BufTy).Contents (Elt Ideal)) (x4 : (⟨S128x64, .f32⟩ : BufTy).Contents (Elt Ideal)) :
    val_main_v31 (F := Ideal) x0 x1 x2 x3 x4
      = arr2 (dense1 (val_main_v22 (F := Ideal) x0 x1) x0 (val_main_v23 (F := Ideal) x2) (val_main_v28 (F := Ideal) x4) (fun j => val_main_v25 (F := Ideal) x3 (ix2 (0 : Fin 1) j))) := by
  funext i
  obtain ⟨r, j, rfl⟩ : ∃ (r : Fin 100000) (j : Fin 128), i = ix2 r j := ⟨i 0, i 1, eq_ix2 i⟩
  show val_main_v31 (F := Ideal) x0 x1 x2 x3 x4 (ix2 r j) = dense1 _ _ _ _ _ r j
  rw [val_main_v31_apply, val_main_v30_apply, val_main_v27_apply, val_main_v24_apply, val_main_v26_apply,
    val_main_v29_apply, val_main_call0_v0_apply, val_main_call0_cst_apply]
  have hl1 : ∀ k : Fin 64, lidx_main_v24 (ix2 r j) k = ix2 r k := fun k => funext fun a => Fin.ext (by match a with | ⟨0, _⟩ => rfl | ⟨1, _⟩ => rfl)
  have hr1 : ∀ k : Fin 64, ridx_main_v24 (ix2 r j) k = ix2 k j := fun k => funext fun a => Fin.ext (by match a with | ⟨0, _⟩ => rfl | ⟨1, _⟩ => rfl)
  have hl2 : ∀ k : Fin 64, lidx_main_v29 (ix2 r j) k = ix2 r k := fun k => funext fun a => Fin.ext (by match a with | ⟨0, _⟩ => rfl | ⟨1, _⟩ => rfl)
  have hr2 : ∀ k : Fin 64, ridx_main_v29 (ix2 r j) k = ix2 k j := fun k => funext fun a => Fin.ext (by match a with | ⟨0, _⟩ => rfl | ⟨1, _⟩ => rfl)
  have hb : idx_main_v26 (ix2 r j) = ix2 (0 : Fin 1) j := funext fun a => Fin.ext (by match a with | ⟨0, _⟩ => rfl | ⟨1, _⟩ => rfl)
  simp only [hl1, hr1, hl2, hr2, hb, Ideal.maximumf_def, Ideal.addf_def, Ideal.ofBits_def]
  exact congrArg (fun t => max t zeroLit)
    (lin_eq_regrouped (row (val_main_v22 (F := Ideal) x0 x1) r) (row x0 r) (col (val_main_v23 (F := Ideal) x2) j)
      (col (val_main_v28 (F := Ideal) x4) j) (val_main_v25 (F := Ideal) x3 (ix2 (0 : Fin 1) j)))

/-! ## Layer 2 -/

/-- The second layer's pre-activations in the reference, by node and channel. -/
abbrev refPre2 (x0 : (⟨S100000x64, .f32⟩ : BufTy).Contents (Elt Ideal)) (x1 : (⟨S2x1600000, .i32⟩ : BufTy).Contents (Elt Ideal)) (x2 : (⟨S128x64, .f32⟩ : BufTy).Contents (Elt Ideal)) (x3 : (⟨S128, .f32⟩ : BufTy).Contents (Elt Ideal)) (x4 : (⟨S128x64, .f32⟩ : BufTy).Contents (Elt Ideal)) (x5 : (⟨S40x128, .f32⟩ : BufTy).Contents (Elt Ideal)) (x6 : (⟨S40, .f32⟩ : BufTy).Contents (Elt Ideal)) (x7 : (⟨S40x128, .f32⟩ : BufTy).Contents (Elt Ideal)) : Fin 100000 → Fin 40 → EReal :=
  pre (val_main_v50 (F := Ideal) x0 x1 x2 x3 x4) (val_main_v31 (F := Ideal) x0 x1 x2 x3 x4) (val_main_v51 (F := Ideal) x5)
    (val_main_v56 (F := Ideal) x7) (fun j => val_main_v53 (F := Ideal) x6 (ix2 (0 : Fin 1) j))

/-- For any matrix `y` of 100000 rows and 40 channels whose row `r` is `P`: the reduce over the channel axis with a
    maximum body, from the minus-infinity literal, is at `r` the fold of `max` over `P` from minus infinity. -/
theorem reduce_max_row (y : (⟨S100000x40, .f32⟩ : BufTy).Contents (Elt Ideal)) (P : Fin 40 → EReal) (r : Fin 100000)
    (hy : ∀ j' : Fin 40, y (ix2 r j') = P j') :
    Host.reduce (FloatOps.maximumf (F := Ideal) (φ := .f32)) y (val_main_call1_cst (F := Ideal))
      Gen.reducesTo_S100000x40_S100000_d1 Gen.h_S_ (ix1 r) = rowMax negInfLit P := by
  have hred : S100000x40.Reduces [1] S100000 := by decide
  refine (Host.reduce_eq_fold_single (FloatOps.maximumf (F := Ideal) (φ := .f32)) y _ Gen.reducesTo_S100000x40_S100000_d1 hred
    Gen.h_S_ (ix1 r)).trans ?_
  have hf : (y ∘ hred.lift (ix1 r)) = P :=
    funext fun k => (congrArg y (funext fun a => Fin.ext (by match a with | ⟨0, _⟩ => rfl | ⟨1, _⟩ => rfl))).trans (hy k)
  rw [hf]
  rfl

section

variable (x0 : (⟨S100000x64, .f32⟩ : BufTy).Contents (Elt Ideal)) (x1 : (⟨S2x1600000, .i32⟩ : BufTy).Contents (Elt Ideal)) (x2 : (⟨S128x64, .f32⟩ : BufTy).Contents (Elt Ideal)) (x3 : (⟨S128, .f32⟩ : BufTy).Contents (Elt Ideal)) (x4 : (⟨S128x64, .f32⟩ : BufTy).Contents (Elt Ideal)) (x5 : (⟨S40x128, .f32⟩ : BufTy).Contents (Elt Ideal)) (x6 : (⟨S40, .f32⟩ : BufTy).Contents (Elt Ideal)) (x7 : (⟨S40x128, .f32⟩ : BufTy).Contents (Elt Ideal))

/-- The sum the reference takes the log-softmax of is the pre-activation, at every node and channel. -/
theorem ref_pre2 (r : Fin 100000) (j : Fin 40) :
    val_main_v58 (F := Ideal) x0 x1 x2 x3 x4 x5 x6 x7 (ix2 r j) = refPre2 x0 x1 x2 x3 x4 x5 x6 x7 r j := by
  rw [val_main_v58_apply, val_main_v55_apply, val_main_v52_apply, val_main_v54_apply, val_main_v57_apply]
  have hl1 : ∀ k : Fin 128, lidx_main_v52 (ix2 r j) k = ix2 r k := fun k => funext fun a => Fin.ext (by match a with | ⟨0, _⟩ => rfl | ⟨1, _⟩ => rfl)
  have hr1 : ∀ k : Fin 128, ridx_main_v52 (ix2 r j) k = ix2 k j := fun k => funext fun a => Fin.ext (by match a with | ⟨0, _⟩ => rfl | ⟨1, _⟩ => rfl)
  have hl2 : ∀ k : Fin 128, lidx_main_v57 (ix2 r j) k = ix2 r k := fun k => funext fun a => Fin.ext (by match a with | ⟨0, _⟩ => rfl | ⟨1, _⟩ => rfl)
  have hr2 : ∀ k : Fin 128, ridx_main_v57 (ix2 r j) k = ix2 k j := fun k => funext fun a => Fin.ext (by match a with | ⟨0, _⟩ => rfl | ⟨1, _⟩ => rfl)
  have hb : idx_main_v54 (ix2 r j) = ix2 (0 : Fin 1) j := funext fun a => Fin.ext (by match a with | ⟨0, _⟩ => rfl | ⟨1, _⟩ => rfl)
  simp only [hl1, hr1, hl2, hr2, hb, Ideal.addf_def]
  exact lin_eq_regrouped (row (val_main_v50 (F := Ideal) x0 x1 x2 x3 x4) r) (row (val_main_v31 (F := Ideal) x0 x1 x2 x3 x4) r)
    (col (val_main_v51 (F := Ideal) x5) j) (col (val_main_v56 (F := Ideal) x7) j) (val_main_v53 (F := Ideal) x6 (ix2 (0 : Fin 1) j))

/-- The reference's row maximum at node `r`: the fold of `max` over the row of pre-activations. -/
theorem ref_rowMax (r : Fin 100000) :
    val_main_call1_v0 (F := Ideal) x0 x1 x2 x3 x4 x5 x6 x7 (ix1 r) = rowMax negInfLit (refPre2 x0 x1 x2 x3 x4 x5 x6 x7 r) := by
  unfold val_main_call1_v0
  exact reduce_max_row (val_main_v58 (F := Ideal) x0 x1 x2 x3 x4 x5 x6 x7) (refPre2 x0 x1 x2 x3 x4 x5 x6 x7 r) r (ref_pre2 x0 x1 x2 x3 x4 x5 x6 x7 r)

/-- What the reference subtracts from row `r`: its maximum, the further `max` with minus infinity changing nothing. -/
theorem ref_shift (r : Fin 100000) (j : Fin 40) :
    val_main_call1_v4 (F := Ideal) x0 x1 x2 x3 x4 x5 x6 x7 (ix2 r j) = rowMax negInfLit (refPre2 x0 x1 x2 x3 x4 x5 x6 x7 r) := by
  rw [val_main_call1_v4_apply, val_main_call1_v3_apply, val_main_call1_v2_apply, val_main_call1_v1_apply,
    val_main_call1_cst_0_apply]
  have e : idx_main_call1_v3 (idx_main_call1_v4 (ix2 r j)) = ix1 r := funext fun a => Fin.ext (by match a with | ⟨0, _⟩ => rfl)
  rw [e, ref_rowMax]
  exact max_bot_rowMax negInfLit _

/-- The shifted row. -/
theorem ref_shifted (r : Fin 100000) (j : Fin 40) :
    val_main_call1_v5 (F := Ideal) x0 x1 x2 x3 x4 x5 x6 x7 (ix2 r j) = refPre2 x0 x1 x2 x3 x4 x5 x6 x7 r j - rowMax negInfLit (refPre2 x0 x1 x2 x3 x4 x5 x6 x7 r) := by
  rw [val_main_call1_v5_apply, ref_pre2, ref_shift]
  rfl

/-- The logarithm the reference subtracts: of the row's sum of exponentials, the sum started from the zero literal. -/
theorem ref_logsum (r : Fin 100000) (j : Fin 40) :
    val_main_call1_v10 (F := Ideal) x0 x1 x2 x3 x4 x5 x6 x7 (ix2 r j)
      = Ideal.log (∑ j' : Fin 40, Ideal.exp (refPre2 x0 x1 x2 x3 x4 x5 x6 x7 r j' - rowMax negInfLit (refPre2 x0 x1 x2 x3 x4 x5 x6 x7 r))) := by
  rw [val_main_call1_v10_apply, val_main_call1_v9_apply, val_main_call1_v8_apply, val_main_call1_v7_apply,
    val_main_call1_cst_1_apply]
  simp only [Ideal.hostUnary_log_def, Ideal.ofBits_def, Ideal.ofBits_zero_f32, zero_add]
  refine congrArg Ideal.log (Finset.sum_congr rfl fun k _ => ?_)
  have e : idx_main_call1_v7 (idx_main_call1_v8 (idx_main_call1_v10 (ix2 r j))) k = ix2 r k := funext fun a => Fin.ext (by match a with | ⟨0, _⟩ => rfl | ⟨1, _⟩ => rfl)
  rw [val_main_call1_v6_apply, Ideal.hostUnary_exp_def, e, ref_shifted]

end

/-- The second layer at node `r`, channel `j`: the shifted pre-activation minus the logarithm of the row's sum of
    exponentials of the shifted pre-activations. -/
theorem ref_layer2 (x0 : (⟨S100000x64, .f32⟩ : BufTy).Contents (Elt Ideal)) (x1 : (⟨S2x1600000, .i32⟩ : BufTy).Contents (Elt Ideal)) (x2 : (⟨S128x64, .f32⟩ : BufTy).Contents (Elt Ideal)) (x3 : (⟨S128, .f32⟩ : BufTy).Contents (Elt Ideal)) (x4 : (⟨S128x64, .f32⟩ : BufTy).Contents (Elt Ideal)) (x5 : (⟨S40x128, .f32⟩ : BufTy).Contents (Elt Ideal)) (x6 : (⟨S40, .f32⟩ : BufTy).Contents (Elt Ideal)) (x7 : (⟨S40x128, .f32⟩ : BufTy).Contents (Elt Ideal)) :
    val_main_v59 (F := Ideal) x0 x1 x2 x3 x4 x5 x6 x7
      = arr2 (dense2 (val_main_v50 (F := Ideal) x0 x1 x2 x3 x4) (val_main_v31 (F := Ideal) x0 x1 x2 x3 x4) (val_main_v51 (F := Ideal) x5) (val_main_v56 (F := Ideal) x7) (fun j => val_main_v53 (F := Ideal) x6 (ix2 (0 : Fin 1) j))) := by
  funext i
  obtain ⟨r, j, rfl⟩ : ∃ (r : Fin 100000) (j : Fin 40), i = ix2 r j := ⟨i 0, i 1, eq_ix2 i⟩
  show val_main_v59 (F := Ideal) x0 x1 x2 x3 x4 x5 x6 x7 (ix2 r j) = logSoftmaxRow negInfLit (refPre2 x0 x1 x2 x3 x4 x5 x6 x7 r) j
  rw [val_main_v59_apply, ref_shifted, ref_logsum]
  rfl

end Cert.Sage.Ref

end
-- ==== Proof.RefBridge.lean ====
/-
  The reference program's last stage is the network function `outF` of its arguments.

  The reference's stages are the same host operations as the kernel program's, so stage by stage they ARE the shared
  functions: the first neighbourhood mean is `agg1` of `x` and the edge list's two rows, the second is `agg2` of the
  hidden features (both by unfolding: the two programs spell the same operations over the same dimension records), the
  transposed weights are the transposes, and the two dense layers are `dense1` / `dense2` row by row (read at an index
  in RefLayers). The one spelling difference is the bias row: the reference broadcasts the bias vector to a one-row
  matrix, the kernel program reshapes it; entry (0, j) of either is entry j of the vector.
-/
import proofs.«133821_j20117626814731_1_alg».proof.Proof.RefReadP
import proofs.«133821_j20117626814731_1_alg».proof.Proof.RefLayers
import proofs.«133821_j20117626814731_1_alg».proof.Proof.Network
import Idealize.ShloMosaic.Lib.Pipeline.Value

set_option maxRecDepth 16384

noncomputable section

namespace Cert.Sage.Ref

open Cert.ReferenceIdeal Cert.ReferenceIdeal.ReadP Idealize.ShloMosaic Idealize.ShloMosaic.ValueIdx Cert.Sage Cert.Sage.Agg

section Generic
variable {F : FTy → Type} [FloatOps F]

/-- The reference's first neighbourhood mean is the shared one. -/
theorem v22_eq (x0 : (⟨S100000x64, .f32⟩ : BufTy).Contents (Elt F)) (x1 : (⟨S2x1600000, .i32⟩ : BufTy).Contents (Elt F)) :
    val_main_v22 (F := F) x0 x1 = agg1 (F := F) x0 (srcOf x1) (dstOf x1) := rfl

/-- The reference's second neighbourhood mean is the shared one, of its own hidden features. -/
theorem v50_eq (x0 : (⟨S100000x64, .f32⟩ : BufTy).Contents (Elt F)) (x1 : (⟨S2x1600000, .i32⟩ : BufTy).Contents (Elt F))
    (x2 : (⟨S128x64, .f32⟩ : BufTy).Contents (Elt F)) (x3 : (⟨S128, .f32⟩ : BufTy).Contents (Elt F)) (x4 : (⟨S128x64, .f32⟩ : BufTy).Contents (Elt F)) :
    val_main_v50 (F := F) x0 x1 x2 x3 x4 = agg2 (F := F) (val_main_v31 (F := F) x0 x1 x2 x3 x4) (srcOf x1) (dstOf x1) := rfl

theorem v23_eq (x2 : (⟨S128x64, .f32⟩ : BufTy).Contents (Elt F)) :
    val_main_v23 (F := F) x2 = transpose Cert.KernelIdeal.S64x128 [1, 0] x2 Cert.KernelIdeal.Gen.transposes_S128x64_S64x128_1_0 := rfl
theorem v28_eq (x4 : (⟨S128x64, .f32⟩ : BufTy).Contents (Elt F)) :
    val_main_v28 (F := F) x4 = transpose Cert.KernelIdeal.S64x128 [1, 0] x4 Cert.KernelIdeal.Gen.transposes_S128x64_S64x128_1_0 := rfl
theorem v51_eq (x5 : (⟨S40x128, .f32⟩ : BufTy).Contents (Elt F)) :
    val_main_v51 (F := F) x5 = transpose Cert.KernelIdeal.S128x40 [1, 0] x5 Cert.KernelIdeal.Gen.transposes_S40x128_S128x40_1_0 := rfl
theorem v56_eq (x7 : (⟨S40x128, .f32⟩ : BufTy).Contents (Elt F)) :
    val_main_v56 (F := F) x7 = transpose Cert.KernelIdeal.S128x40 [1, 0] x7 Cert.KernelIdeal.Gen.transposes_S40x128_S128x40_1_0 := rfl

end Generic

/-- A vector reshaped to a one-row matrix reads, at (0, j), the vector at j. -/
theorem row_of_reshape {N : ℕ} {α : Type} (b : (⟨1, ![N]⟩ : Shape).Idx → α) (h : (⟨1, ![N]⟩ : Shape).ShapeCasts ⟨2, ![1, N]⟩) (j : Fin N) :
    shapeCast ⟨2, ![1, N]⟩ b h (ix2 (0 : Fin 1) j) = b (ix1 j) :=
  shapeCast_apply b h _ _ (by
    rw [Shape.rowMajor_val_two, Shape.rowMajor_val_one]
    show j.val = 0 * N + j.val
    omega)

/-- The first layer's bias row: the reference's broadcast and the reshape agree entry by entry. -/
theorem bias1_eq (x3 : (⟨S128, .f32⟩ : BufTy).Contents (Elt Ideal)) :
    (fun j : Fin 128 => val_main_v25 (F := Ideal) x3 (ix2 (0 : Fin 1) j))
      = fun j => shapeCast Cert.KernelIdeal.S1x128 x3 Cert.KernelIdeal.Gen.shapeCasts_S128_S1x128 (ix2 (0 : Fin 1) j) := by
  funext j
  rw [val_main_v25_apply]
  refine Eq.trans (congrArg x3 (funext fun a => Fin.ext ?_)) (row_of_reshape x3 _ j).symm
  match a with
  | ⟨0, _⟩ => rfl

/-- The second layer's bias row, likewise. -/
theorem bias2_eq (x6 : (⟨S40, .f32⟩ : BufTy).Contents (Elt Ideal)) :
    (fun j : Fin 40 => val_main_v53 (F := Ideal) x6 (ix2 (0 : Fin 1) j))
      = fun j => shapeCast Cert.KernelIdeal.S1x40 x6 Cert.KernelIdeal.Gen.shapeCasts_S40_S1x40 (ix2 (0 : Fin 1) j) := by
  funext j
  rw [val_main_v53_apply]
  refine Eq.trans (congrArg x6 (funext fun a => Fin.ext ?_)) (row_of_reshape x6 _ j).symm
  match a with
  | ⟨0, _⟩ => rfl

/-- The reference's hidden features are the network's. -/
theorem hidden_eq (x0 : (⟨S100000x64, .f32⟩ : BufTy).Contents (Elt Ideal)) (x1 : (⟨S2x1600000, .i32⟩ : BufTy).Contents (Elt Ideal))
    (x2 : (⟨S128x64, .f32⟩ : BufTy).Contents (Elt Ideal)) (x3 : (⟨S128, .f32⟩ : BufTy).Contents (Elt Ideal)) (x4 : (⟨S128x64, .f32⟩ : BufTy).Contents (Elt Ideal)) :
    val_main_v31 (F := Ideal) x0 x1 x2 x3 x4 = hiddenF x0 x1 x2 x3 x4 := by
  rw [ref_layer1, v22_eq, v23_eq, v28_eq, bias1_eq]
  rfl

/-- The reference's result is the network's output. -/
theorem out_eq (x0 : (⟨S100000x64, .f32⟩ : BufTy).Contents (Elt Ideal)) (x1 : (⟨S2x1600000, .i32⟩ : BufTy).Contents (Elt Ideal))
    (x2 : (⟨S128x64, .f32⟩ : BufTy).Contents (Elt Ideal)) (x3 : (⟨S128, .f32⟩ : BufTy).Contents (Elt Ideal)) (x4 : (⟨S128x64, .f32⟩ : BufTy).Contents (Elt Ideal))
    (x5 : (⟨S40x128, .f32⟩ : BufTy).Contents (Elt Ideal)) (x6 : (⟨S40, .f32⟩ : BufTy).Contents (Elt Ideal)) (x7 : (⟨S40x128, .f32⟩ : BufTy).Contents (Elt Ideal)) :
    val_main_v59 (F := Ideal) x0 x1 x2 x3 x4 x5 x6 x7 = outF x0 x1 x2 x3 x4 x5 x6 x7 := by
  rw [ref_layer2, v50_eq, hidden_eq, v51_eq, v56_eq, bias2_eq]
  rfl

end Cert.Sage.Ref

end
-- ==== Proof.lean ====
/- The proof of `Cert.Claim` (proofs.«133821_j20117626814731_1_alg».proof.Defs): a two-layer SAGE graph network with mean aggregation — per layer, each
   node's neighbourhood mean and its own features go through a dense layer `agg · Wlᵀ + b + h · Wrᵀ`; the first layer is
   clamped at zero, the second ends in a row log-softmax — as a kernel program (the neighbourhood means on the host, each
   dense layer a pallas_call over 20 blocks of 5000 nodes) against a plain host program.

   At the ideal instance both compute the same function `Cert.Sage.outF` of the eight arguments (Proof/Network.lean):
     * the two programs apply the SAME host operations for the neighbourhood mean, so it is carried as one function of
       the node features and the edge list (Proof/SegMean.lean) and never opened;
     * a dense layer's row depends on that node's two input rows only, so each pallas_call's blocks are the blocks of one
       whole-array function (Proof/Region0.lean, Proof/Region1.lean over the body's arithmetic read at an index,
       Proof/KernelPayload.lean), and the kernel program's result is `outF` of its arguments (Proof/KernelValue.lean over
       the run of @main with the result named, Proof/KernelRun.lean);
     * the reference's stages, read at an index (Proof/RefLayers.lean), are the same row functions — it adds the bias
       before the second product, `(a·Wl + b) + h·Wr`, which is the same extended real as `(a·Wl + h·Wr) + b` because
       addition of extended reals is commutative and associative, infinities included (no finiteness is used) — so its
       result is `outF` of its arguments too (Proof/RefBridge.lean over its run, Proof/RefRun.lean).
   The three frames: the two kernel programs' are the generated frame certificates; the reference's is its run with the
   result dropped. The ideal pass rewrote nothing, so `preserves` asks nothing. -/
import proofs.«133821_j20117626814731_1_alg».proof.Defs
import proofs.«133821_j20117626814731_1_alg».proof.Proof.Gen.Kernel
import proofs.«133821_j20117626814731_1_alg».proof.Proof.Gen.Kernel.Frame
import proofs.«133821_j20117626814731_1_alg».proof.Proof.Gen.KernelIdeal
import proofs.«133821_j20117626814731_1_alg».proof.Proof.Gen.KernelIdeal.Frame
import proofs.«133821_j20117626814731_1_alg».proof.Proof.Gen.ReferenceIdeal
import proofs.«133821_j20117626814731_1_alg».proof.Proof.Gen.Pre_finite_inputs
import proofs.«133821_j20117626814731_1_alg».proof.Proof.KernelRun
import proofs.«133821_j20117626814731_1_alg».proof.Proof.KernelValue
import proofs.«133821_j20117626814731_1_alg».proof.Proof.Network
import proofs.«133821_j20117626814731_1_alg».proof.Proof.RefRun
import proofs.«133821_j20117626814731_1_alg».proof.Proof.RefBridge
import Idealize.ShloMosaic.Adequacy
import Idealize.ShloMosaic.Init

set_option maxRecDepth 16384

noncomputable section

namespace Cert.Proof

open Idealize.ShloMosaic Idealize.SL.Sem

/-- The word-level kernel program runs and keeps its arguments: the generated frame certificate. -/
theorem frame_k : Cert.frame_Kernel := fun m ρ _ => Cert.Kernel.Gen.frame m ρ

/-- The idealized kernel program runs and keeps its arguments: the generated frame certificate. -/
theorem frame_ki : Cert.frame_KernelIdeal := fun m ρ _ => Cert.KernelIdeal.Gen.frame m ρ

/-- The idealized reference runs and keeps its arguments: its run, the result dropped. -/
theorem frame_ri : Cert.frame_ReferenceIdeal := fun m ρ _ =>
  (θ_run Cert.ReferenceIdeal.defs _ _).mono (fun _ h c => (h c).2) (Cert.Sage.Ref.run (F := Ideal) m ρ)

/-- The ideal pass rewrote no operation: nothing to preserve. -/
theorem preserves : Cert.preserves_Kernel_KernelIdeal := trivial

/-- The kernel program's result, as the network function of its arguments. -/
theorem outK_eq (m : (ℓ : Loc Cert.KernelIdeal.nD Cert.KernelIdeal.τ Cert.KernelIdeal.sig) → Buf (Elt Ideal) ℓ) (c : Dev Cert.KernelIdeal.nD) :
    Cert.Sage.Kernel.outK m c
      = Cert.Sage.outF (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := rfl

/-- From memories agreeing on the arguments both programs end with the network's output of those arguments. -/
theorem algebraic : Cert.algebraic_KernelIdeal_ReferenceIdeal := by
  intro m ρ m' ρ' _ hagree
  refine ⟨fun c => Cert.Sage.Kernel.outK m c, ?_, ?_⟩
  · exact (θ_run Cert.KernelIdeal.defs _ _).mono
      (fun r h c => ⟨((h c).1).trans (Cert.Sage.Kernel.W4_out m ρ c), (h c).2⟩)
      (Cert.KernelIdeal.GenRun.run_named (F := Ideal) m ρ)
  · refine (θ_run Cert.ReferenceIdeal.defs _ _).mono (fun _ h c => ⟨(h c).1.trans ?_, (h c).2⟩)
      (Cert.Sage.Ref.run (F := Ideal) m' ρ')
    rw [Cert.Sage.Ref.out_eq, (hagree c).1, (hagree c).2.1, (hagree c).2.2.1, (hagree c).2.2.2.1, (hagree c).2.2.2.2.1,
      (hagree c).2.2.2.2.2.1, (hagree c).2.2.2.2.2.2.1, (hagree c).2.2.2.2.2.2.2]
    exact (outK_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
